-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x2048 : Shape := ⟨2, ![8192, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_

variable [Facts]

def fn_part3 {F : FTy → Type} [FloatOps F] (main_arg11 : FVec F S2048 .f32) (main_arg12 : FVec F S2048x2048 .f32) (main_v48 : IVec S_ 1) (main_v49 : FVec F S1x2048 .f32) (main_v50 : FVec F S1x2048 .f32) : IVec S_ 1 :=
  let main_v51 : IVec S1x2048 1 := cmpf .olt main_v49 main_v50
  let main_c_19 : IVec S_ 1 := constantI S_ 1 1#1
  let main_v52 : IVec S_ 1 := (fun x v => Host.reduce IntOp.andi x v reducesTo_S1x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  main_v63

def fn_part2 {F : FTy → Type} [FloatOps F] (main_arg7 : FVec F S1x2048 .f32) (main_arg8 : FVec F S1x2048 .f32) (main_arg9 : FVec F S1x2048 .f32) (main_arg10 : FVec F S1x2048 .f32) (main_arg11 : FVec F S2048 .f32) (main_arg12 : FVec F S2048x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S1x2048 .f32 := Host.absf main_arg10
  let main_cst_18 : FVec F S_ .f32 := constant S_ .f32 0x7F800000#32
  let main_v50 : FVec F S1x2048 .f32 := broadcastInDim S1x2048 ![] bcast_S_S1x2048 main_cst_18
  fn_part3 (F := F) main_arg11 main_arg12 main_v48 main_v49 main_v50

def fn_part1 {F : FTy → Type} [FloatOps F] (main_arg4 : FVec F S512x2048 .f32) (main_arg5 : FVec F S2048x2048 .f32) (main_arg6 : FVec F S2048 .f32) (main_arg7 : FVec F S1x2048 .f32) (main_arg8 : FVec F S1x2048 .f32) (main_arg9 : FVec F S1x2048 .f32) (main_arg10 : FVec F S1x2048 .f32) (main_arg11 : FVec F S2048 .f32) (main_arg12 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x512 .f32) (main_arg1 : FVec F S8192x2048 .f32) (main_arg2 : FVec F S8192x2048 .f32) (main_arg3 : FVec F S8192x2048 .f32) (main_arg4 : FVec F S512x2048 .f32) (main_arg5 : FVec F S2048x2048 .f32) (main_arg6 : FVec F S2048 .f32) (main_arg7 : FVec F S1x2048 .f32) (main_arg8 : FVec F S1x2048 .f32) (main_arg9 : FVec F S1x2048 .f32) (main_arg10 : FVec F S1x2048 .f32) (main_arg11 : FVec F S2048 .f32) (main_arg12 : FVec F S2048x2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_v13 main_v16
-- ==== Kernel.lean ====
abbrev S8192x512 : Shape := ⟨2, ![8192, 512]⟩
abbrev S8192x2048 : Shape := ⟨2, ![8192, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256x512 : Shape := ⟨2, ![256, 512]⟩

abbrev nBuf : Space → Nat
  | .hbm => 20
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S512x2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S2048x2048, .f32⟩
  | .hbm, ⟨13, _⟩ => ⟨S512x2048, .bf16⟩
  | .hbm, ⟨14, _⟩ => ⟨S2048x1, .f32⟩
  | .hbm, ⟨15, _⟩ => ⟨S2048x2048, .bf16⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .local _ .vmem, ⟨0, _⟩ => ⟨S512x2048, .f32⟩
  | .local _ .vmem, ⟨1, _⟩ => ⟨S512x2048, .bf16⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x512, .f32⟩
  | .local _ .vmem, ⟨11, _⟩ => ⟨S256x512, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S512x2048, .bf16⟩
  | .local _ .vmem, ⟨19, _⟩ => ⟨S2048x2048, .bf16⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg11_1 : Ref sig .tc := ⟨.vmem, 26, rfl⟩
abbrev cc2_stg12_0 : Ref sig .tc := ⟨.vmem, 27, rfl⟩
abbrev cc2_stg12_1 : Ref sig .tc := ⟨.vmem, 28, rfl⟩
abbrev cc2_stg13_0 : Ref sig .tc := ⟨.vmem, 29, rfl⟩
abbrev cc2_stg13_1 : Ref sig .tc := ⟨.vmem, 30, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem11_1 : DmaSem sig := 26
abbrev cc2_sem12_0 : DmaSem sig := 27
abbrev cc2_sem12_1 : DmaSem sig := 28
abbrev cc2_sem13_0 : DmaSem sig := 29
abbrev cc2_sem13_1 : DmaSem sig := 30

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x2048 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x2048 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x2048 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S256x2048 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x2048 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S2048x1 : S2048.ShapeCasts S2048x1
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  broadcasts_S1x2048_S256x2048 : S1x2048.Broadcasts S256x2048
  inb_S256x512_S256x512_0_0 : ∀ a, (![0, 0] : Fin 2 → Nat) a + S256x512.size a ≤ S256x512.size a
  h_S256x512 : 0 < S256x512.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1x2048_S1x2048 : S1x2048.ShapeCasts S1x2048
  dot_S256x512_S512x2048_S256x2048_1_0_0_1_n_n_wf : DotDims.WF S256x512 S512x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S2048x1.size a
  hwx1_1 : ∀ i : grid1.Coords, EltTy.bits .f32 = 32 ∨ (Rect.block (s := S2048x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .f32 = 32 ∨ (Rect.block (s := S2048x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .bf16 = 32 ∨ (Rect.block (s := S2048x2048) S256x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S8192x512.size a
  hwx2_0 : ∀ i : grid2.Coords, EltTy.bits .f32 = 32 ∨ (Rect.block (s := S8192x512) S256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S8192x2048.size a
  hwx2_1 : ∀ i : grid2.Coords, EltTy.bits .f32 = 32 ∨ (Rect.block (s := S8192x2048) S256x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x2048.size a
  hwx2_2 : ∀ i : grid2.Coords, EltTy.bits .f32 = 32 ∨ (Rect.block (s := S8192x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S8192x2048.size a
  hwx2_3 : ∀ i : grid2.Coords, EltTy.bits .f32 = 32 ∨ (Rect.block (s := S8192x2048) S256x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x2048.size a ≤ S512x2048.size a
  hwx2_4 : ∀ i : grid2.Coords, EltTy.bits .bf16 = 32 ∨ (Rect.block (s := S512x2048) S512x2048.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x2048.size a ≤ S2048x2048.size a
  hwx2_5 : ∀ i : grid2.Coords, EltTy.bits .bf16 = 32 ∨ (Rect.block (s := S2048x2048) S2048x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2048.size a ≤ S1x2048.size a
  hwx2_7 : ∀ i : grid2.Coords, EltTy.bits .f32 = 32 ∨ (Rect.block (s := S1x2048) S1x2048.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2048.size a ≤ S1x2048.size a
  hwx2_8 : ∀ i : grid2.Coords, EltTy.bits .f32 = 32 ∨ (Rect.block (s := S1x2048) S1x2048.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x2048.size a ≤ S1x2048.size a
  hwx2_9 : ∀ i : grid2.Coords, EltTy.bits .f32 = 32 ∨ (Rect.block (s := S1x2048) S1x2048.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x2048.size a ≤ S1x2048.size a
  hwx2_10 : ∀ i : grid2.Coords, EltTy.bits .f32 = 32 ∨ (Rect.block (s := S1x2048) S1x2048.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S256x2048.size a ≤ S8192x2048.size a
  hwx2_11 : ∀ i : grid2.Coords, EltTy.bits .f32 = 32 ∨ (Rect.block (s := S8192x2048) S256x2048.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S256x2048.size a ≤ S8192x2048.size a
  hwx2_12 : ∀ i : grid2.Coords, EltTy.bits .f32 = 32 ∨ (Rect.block (s := S8192x2048) S256x2048.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S256x2048.size a ≤ S8192x2048.size a
  hwx2_13 : ∀ i : grid2.Coords, EltTy.bits .f32 = 32 ∨ (Rect.block (s := S8192x2048) S256x2048.size (cc2_transform_13 i) (hinb2_13 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg4) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg5) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S512x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S2048x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S1x2048.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S1x2048.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S1x2048.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S1x2048.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v4_0) S256x2048.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v4_1) S256x2048.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v4_2) S256x2048.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x2048 : Shape := ⟨2, ![8192, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S2048x1 : Shape := ⟨2, ![2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S512x2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S2048x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S2048x1, .f32⟩
  | .hbm, ⟨63, _⟩ => ⟨S_, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S512x2048, .f32⟩
  | .hbm, ⟨71, _⟩ => ⟨S512x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S1x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v27 : Ref sig .tc := ⟨.hbm, 51, rfl⟩
abbrev main_cst_5 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_call2_cst : Ref sig .tc := ⟨.hbm, 63, rfl⟩
abbrev main_call2_v0 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_call3_cst : Ref sig .tc := ⟨.hbm, 69, rfl⟩
abbrev main_call3_v0 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_call4_cst : Ref sig .tc := ⟨.hbm, 81, rfl⟩
abbrev main_call4_v0 : Ref sig .tc := ⟨.hbm, 82, rfl⟩
abbrev main_v45 : Ref sig .tc := ⟨.hbm, 83, rfl⟩
abbrev main_cst_8 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S1x2048_S8192x2048_0_1 : S1x2048.BroadcastsInDim S8192x2048 (![0, 1] : Fin 2 → Fin S8192x2048.rank)
  bcast_S_S1x2048 : S_.BroadcastsInDim S1x2048 (![] : Fin 0 → Fin S1x2048.rank)
  bcast_S2048_S2048x1_0 : S2048.BroadcastsInDim S2048x1 (![0] : Fin 1 → Fin S2048x1.rank)
  bcast_S_S2048x2048 : S_.BroadcastsInDim S2048x2048 (![] : Fin 0 → Fin S2048x2048.rank)
  bcast_S2048x1_S2048x2048_0_1 : S2048x1.BroadcastsInDim S2048x2048 (![0, 1] : Fin 2 → Fin S2048x2048.rank)
  bcast_S_S512x2048 : S_.BroadcastsInDim S512x2048 (![] : Fin 0 → Fin S512x2048.rank)
  bcast_S2048_S1x2048_1 : S2048.BroadcastsInDim S1x2048 (![1] : Fin 1 → Fin S1x2048.rank)
  dot_S8192x512_S512x2048_S8192x2048_1_0_0_1_n_n_wf : DotDims.WF S8192x512 S512x2048 S8192x2048 [1] [0] [0] [1] [] []
  dot_S8192x2048_S2048x2048_S8192x2048_1_0_0_1_n_n_wf : DotDims.WF S8192x2048 S2048x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
import Idealize.ShloMosaic.PureOps.Ideal
import Idealize.ShloMosaic.Lib.ValueIdx

/-!
One step of a recurrent cell with short-term synaptic plasticity, as whole-array functions on the
extended reals.

For a batch row `b` and a unit `j`, with hidden state `h`, available resources `x` and utilisation `u`:

* `x' = clip₀¹ (x + (α_d (1 - x) - ((δ u) x) h) g)`  (depression),
* `u' = clip₀¹ (u + (α_f (U - u) + ((δ U) (1 - u)) h) g)`  (facilitation),
* the gated state `p = (u' x') h`,
* the input weights are rectified, `max W 0`, and the recurrent weights are rectified, signed by the
  presynaptic unit's type and masked: `M (e · max W 0)`,
* `h' = h γ + β · max ((inp · relu W_ih + p · W_eff) + bias) 0`.

`α_d, α_f, U, g` are rows broadcast over the batch, `e` a column broadcast over the columns, `bias` a row.
The float literals `δ, γ, β, 0, 1` are kept as the words the programs spell; none is ever evaluated.
Every sum is a `Finset` sum, so no order or grouping of a contraction is fixed here, and nothing is
assumed about finiteness: both programs are read as this same tree of operations.
-/

noncomputable section

namespace Cert.Stsp

open Idealize.ShloMosaic Idealize.ShloMosaic.ValueIdx

/-- A matrix of extended reals, indexed by a rank-2 multi-index over literal extents. -/
abbrev Mat (r c : Nat) : Type := (⟨2, ![r, c]⟩ : Shape).Idx → EReal
/-- A vector of extended reals, indexed by a rank-1 multi-index. -/
abbrev Vect (n : Nat) : Type := (⟨1, ![n]⟩ : Shape).Idx → EReal

/-- The words the two programs share. -/
abbrev zero : EReal := Ideal.ofBits .f32 0x00000000#32
abbrev one : EReal := Ideal.ofBits .f32 0x3F800000#32
/-- The time step in seconds, as the f32 word both programs multiply by. -/
abbrev dtSec : EReal := Ideal.ofBits .f32 0x3C23D70A#32
/-- The leak `1 - dt/τ` and the gain `dt/τ` of the membrane update, as their f32 words. -/
abbrev leak : EReal := Ideal.ofBits .f32 0x3F666666#32
abbrev gain : EReal := Ideal.ofBits .f32 0x3DCCCCCD#32

/-- Clipping to the unit interval, lower bound first, in the operand order both programs use. -/
def clip01 (v : EReal) : EReal := min one (max zero v)

/-- The depression update at one entry. -/
def depress (h x u ad g : EReal) : EReal :=
  clip01 (x + (ad * (one - x) - ((dtSec * u) * x) * h) * g)

/-- The facilitation update at one entry. -/
def facilitate (h u af U g : EReal) : EReal :=
  clip01 (u + (af * (U - u) + ((dtSec * U) * (one - u)) * h) * g)

/-- The row of a `1 × n` array that entry `i` of a `b × n` array reads. -/
abbrev rowOf {b n : Nat} (i : (⟨2, ![b, n]⟩ : Shape).Idx) : (⟨2, ![1, n]⟩ : Shape).Idx := ix2 (0 : Fin 1) (i 1)
/-- The entry of an `n × 1` column that entry `i` of an `n × k` array reads. -/
abbrev colOf {n k : Nat} (i : (⟨2, ![n, k]⟩ : Shape).Idx) : (⟨2, ![n, 1]⟩ : Shape).Idx := ix2 (i 0) (0 : Fin 1)

/-- The new resources, entry by entry. -/
def resources {b n : Nat} (h x u : Mat b n) (ad g : Mat 1 n) : Mat b n := fun i =>
  depress (h i) (x i) (u i) (ad (rowOf i)) (g (rowOf i))

/-- The new utilisation, entry by entry. -/
def utilisation {b n : Nat} (h u : Mat b n) (af U g : Mat 1 n) : Mat b n := fun i =>
  facilitate (h i) (u i) (af (rowOf i)) (U (rowOf i)) (g (rowOf i))

/-- The gated hidden state that feeds the recurrent product. -/
def gated {b n : Nat} (h x u : Mat b n) (af ad U g : Mat 1 n) : Mat b n := fun i =>
  (utilisation h u af U g i * resources h x u ad g i) * h i

/-- Rectified weights. -/
def rectified {r k : Nat} (w : Mat r k) : Mat r k := fun i => max (w i) zero

/-- Effective recurrent weights: rectified, signed by the row's unit type (a column), masked. -/
def effective {n k : Nat} (w : Mat n k) (e : Mat n 1) (mask : Mat n k) : Mat n k := fun i =>
  mask i * (e (colOf i) * max (w i) zero)

/-- The new hidden state from ready-made weights `wi` (input) and `wr` (recurrent) and a bias row. -/
def hidden {b k n : Nat} (inp : Mat b k) (h x u : Mat b n) (wi : Mat k n) (wr : Mat n n) (bias : Mat 1 n)
    (af ad U g : Mat 1 n) : Mat b n := fun i =>
  h i * leak + gain * max (((∑ q : Fin k, inp (ix2 (i 0) q) * wi (ix2 q (i 1)))
      + (∑ q : Fin n, gated h x u af ad U g (ix2 (i 0) q) * wr (ix2 q (i 1)))) + bias (rowOf i)) zero

/-- A vector read as a column. -/
def asColumn {n : Nat} (v : Vect n) : Mat n 1 := fun i => v (ix1 (i 0))
/-- A vector read as a row. -/
def asRow {n : Nat} (v : Vect n) : Mat 1 n := fun i => v (ix1 (i 1))

/-- The whole step's new hidden state, from the raw weights, the unit types and the bias vector. -/
def step {b k n : Nat} (inp : Mat b k) (h x u : Mat b n) (wih : Mat k n) (whh : Mat n n) (bias : Vect n)
    (af ad U g : Mat 1 n) (e : Vect n) (mask : Mat n n) : Mat b n :=
  hidden inp h x u (rectified wih) (effective whh (asColumn e) mask) (asRow bias) af ad U g

end Cert.Stsp

end
-- ==== Proof.InputWeights.lean ====
import proofs.«416485_j1580547969043_3_alg».proof.Proof.Gen.KernelIdeal.Frame
import proofs.«416485_j1580547969043_3_alg».proof.Proof.Spec
import Idealize.ShloMosaic.Lib.Pipeline.Value
import Idealize.ShloMosaic.Lib.ValueIdx
import Idealize.ShloMosaic.Lib.Tactic

/-!
The first launch rectifies the input weights. It has one grid point whose block is the whole
`512 × 2048` array, so what the launch leaves in its output array is `max W 0` of the array it found,
entry by entry: the one stored payload is `max` against the zero splat followed by a change of float
format, which is the identity on the extended reals.

Stated for any contents `V` of the buffers at the launch's entry.
-/

set_option maxRecDepth 16384

noncomputable section

open Idealize.ShloMosaic Idealize.ShloMosaic.TcCoe Idealize.SL.Sem
open Idealize.ShloMosaic.Pipeline (Dat)

namespace Cert.KernelIdeal.InputWeights

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The raw input weights as the launch finds them, at their literal type. -/
abbrev raw (c : Dev nD) : Stsp.Mat 512 2048 := V c main_arg4

/-- Both windows sit at block (0, 0) at the one grid point. -/
theorem block_index : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is the block of `max W 0`: the payload read at an index of the output's
    block is `max` of the input block there against zero, and the two blocks sit at the same place. -/
theorem flushed_eq (c : Dev nD) (t : Fin cfg0.N) :
    (dat0 (F := Ideal) V c).flushed 1 t
      = ((cfg0.win 1).blk t).view.read (Elt Ideal) (Stsp.rectified (raw V c)) := by
  show (cfg0.win 1).cut (grid0.coords t) ((dat0 V c).after 1 t) = _
  rw [after0_1]
  unfold out0_1
  rw [View.canon_unit_zero hz]
  simp only [View.ld_unit_zero (S := S512x2048) hz]
  funext j
  obtain ⟨e0, e1, e2, e3⟩ := block_index t
  show max (raw V c (((cfg0.win 0).blk t).view.emb j)) Stsp.zero
     = max (raw V c (((cfg0.win 1).blk t).view.emb j)) Stsp.zero
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; rw [e0, e2]
    | ⟨1, _⟩ => show win0_0.index t (1 : Fin 2) * 2048 + 1 * (j 1).val = win0_1.index t (1 : Fin 2) * 2048 + 1 * (j 1).val; rw [e1, e3]
  rw [h0]

/-- An index lies in the output's block at a point iff each coordinate lies in the block's range. -/
theorem mem_blk (t : Fin cfg0.N) (i : S512x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v0).slice (win0_1.rect t)).set ↔ _
  rw [View.set_slice_whole, Rect.mem_set_unit]
  exact Iff.rfl

/-- The launch leaves the rectified weights in its output array: the one point's block covers it. -/
theorem final (c : Dev nD) : (dat0 (F := Ideal) V c).arrAt 1 cfg0.N = Stsp.rectified (raw V c) :=
  (dat0 (F := Ideal) V c).arrAt_eq_of_cover 1 (Stsp.rectified (raw V c)) (fun t _ => flushed_eq V c t) fun i => by
    refine ⟨t0_0, flush0_1 t0_0, ?_⟩
    rw [mem_blk]
    obtain ⟨-, -, e2, e3⟩ := block_index t0_0
    intro a
    match a with
    | ⟨0, _⟩ =>
      show win0_1.index t0_0 (0 : Fin 2) * 512 ≤ (i 0).val ∧ (i 0).val < win0_1.index t0_0 (0 : Fin 2) * 512 + 512
      have hi : (i 0).val < 512 := (i 0).isLt
      rw [e2]; omega
    | ⟨1, _⟩ =>
      show win0_1.index t0_0 (1 : Fin 2) * 2048 ≤ (i 1).val ∧ (i 1).val < win0_1.index t0_0 (1 : Fin 2) * 2048 + 2048
      have hi : (i 1).val < 2048 := (i 1).isLt
      rw [e3]; omega

end Cert.KernelIdeal.InputWeights

end
-- ==== Proof.EffectiveWeights.lean ====
import proofs.«416485_j1580547969043_3_alg».proof.Proof.Gen.KernelIdeal.Frame
import proofs.«416485_j1580547969043_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
The second launch builds the effective recurrent weights, eight row blocks of 256 rows each: at block
`t` it reads rows `256 t … 256 t + 255` of the raw weights, of the unit-type column and of the mask, and
stores `M (e · max W 0)` there (then a change of float format, the identity on the extended reals).
The eight blocks tile the `2048 × 2048` output, so the launch leaves `Stsp.effective` of the arrays it found.

Stated for any contents `V` of the buffers at the launch's entry.
-/

set_option maxRecDepth 16384

noncomputable section

open Idealize.ShloMosaic Idealize.ShloMosaic.TcCoe Idealize.SL.Sem
open Idealize.ShloMosaic.Pipeline (Dat)

namespace Cert.KernelIdeal.EffectiveWeights

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The arrays the launch reads, at their literal types. -/
abbrev raw (c : Dev nD) : Stsp.Mat 2048 2048 := V c main_arg5
abbrev unitType (c : Dev nD) : Stsp.Mat 2048 1 := V c main_v1
abbrev mask (c : Dev nD) : Stsp.Mat 2048 2048 := V c main_arg12

/-- The stored payload at an entry of a block: the mask there times the product of the column's entry in
    that row and the rectified weight there. -/
theorem pay_apply (w m : Vec Ideal S256x2048 .f32) (e : Vec Ideal S256x1 .f32) (p : Fin 256) (q : Fin 2048) :
    k1_pay1 (F := Ideal) w m e (ix2 p q)
      = (m (ix2 p q) : EReal) * ((e (ix2 p (0 : Fin 1)) : EReal) * max (w (ix2 p q) : EReal) Stsp.zero) := by
  unfold k1_pay1
  rw [truncf_apply, mulf_apply, mulf_apply, maximumf_apply, broadcast_apply, shapeCast_self]
  rw [broadcastTo_apply (s := S256x1) (t := S256x2048) e broadcasts_S256x1_S256x2048 (ix2 p q) (ix2 p (0 : Fin 1))
    (fun a => by match a with | ⟨0, _⟩ => rfl | ⟨1, _⟩ => rfl)]
  rfl

/-- At point `t` every window sits at block `(t, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the effective weights: the payload at entry `(p, q)` of the block
    reads the three input blocks at `(p, q)`, `(p, 0)`, `(p, q)`, and all four blocks sit at rows `256 t + p`. -/
theorem flushed_eq (c : Dev nD) (t : Fin cfg1.N) :
    (dat1 (F := Ideal) V c).flushed 3 t
      = ((cfg1.win 3).blk t).view.read (Elt Ideal) (Stsp.effective (raw V c) (unitType V c) (mask V c)) := by
  show (cfg1.win 3).cut (grid1.coords t) ((dat1 V c).after 3 t) = _
  rw [after1_3]
  unfold out1_3
  rw [View.canon_unit_zero hz]
  simp only [View.ld_unit_zero (S := S256x2048) hz, View.ld_unit_zero (S := S256x1) hz]
  funext j
  obtain ⟨p, q, rfl⟩ : ∃ (p : Fin 256) (q : Fin 2048), j = ix2 p q := ⟨j 0, j 1, eq_ix2 j⟩
  refine (pay_apply (iblk1 V c 0 t) (iblk1 V c 2 t) (iblk1 V c 1 t) p q).trans ?_
  obtain ⟨e00, e01, e10, e11, e20, e21, e30, e31⟩ := block_index t
  show mask V c (((cfg1.win 2).blk t).view.emb (ix2 p q))
        * (unitType V c (((cfg1.win 1).blk t).view.emb (ix2 p (0 : Fin 1)))
            * max (raw V c (((cfg1.win 0).blk t).view.emb (ix2 p q))) Stsp.zero)
     = mask V c (((cfg1.win 3).blk t).view.emb (ix2 p q))
        * (unitType V c (Stsp.colOf (((cfg1.win 3).blk t).view.emb (ix2 p q)))
            * max (raw V c (((cfg1.win 3).blk t).view.emb (ix2 p q))) Stsp.zero)
  have h0 : ((cfg1.win 0).blk t).view.emb (ix2 p q) = ((cfg1.win 3).blk t).view.emb (ix2 p q) := by
    funext a; apply Fin.ext
    match a with
    | ⟨0, _⟩ => show win1_0.index t (0 : Fin 2) * 256 + 1 * p.val = win1_3.index t (0 : Fin 2) * 256 + 1 * p.val; rw [e00, e30]
    | ⟨1, _⟩ => show win1_0.index t (1 : Fin 2) * 2048 + 1 * q.val = win1_3.index t (1 : Fin 2) * 2048 + 1 * q.val; rw [e01, e31]
  have h2 : ((cfg1.win 2).blk t).view.emb (ix2 p q) = ((cfg1.win 3).blk t).view.emb (ix2 p q) := by
    funext a; apply Fin.ext
    match a with
    | ⟨0, _⟩ => show win1_2.index t (0 : Fin 2) * 256 + 1 * p.val = win1_3.index t (0 : Fin 2) * 256 + 1 * p.val; rw [e20, e30]
    | ⟨1, _⟩ => show win1_2.index t (1 : Fin 2) * 2048 + 1 * q.val = win1_3.index t (1 : Fin 2) * 2048 + 1 * q.val; rw [e21, e31]
  have h1 : ((cfg1.win 1).blk t).view.emb (ix2 p (0 : Fin 1)) = Stsp.colOf (((cfg1.win 3).blk t).view.emb (ix2 p q)) := by
    funext a; apply Fin.ext
    match a with
    | ⟨0, _⟩ => show win1_1.index t (0 : Fin 2) * 256 + 1 * p.val = win1_3.index t (0 : Fin 2) * 256 + 1 * p.val; rw [e10, e30]
    | ⟨1, _⟩ => show win1_1.index t (1 : Fin 2) * 1 + 1 * (0 : Fin 1).val = (0 : Fin 1).val; rw [e11]; rfl
  rw [h0, h2, h1]

/-- An index lies in the output's block at a point iff each coordinate lies in the block's range. -/
theorem mem_blk (t : Fin cfg1.N) (i : S2048x2048.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v2).slice (win1_3.rect t)).set ↔ _
  rw [View.set_slice_whole, Rect.mem_set_unit]
  exact Iff.rfl

/-- The launch leaves the effective weights in its output array: row `r` lies in the block of point `r / 256`. -/
theorem final (c : Dev nD) :
    (dat1 (F := Ideal) V c).arrAt 3 cfg1.N = Stsp.effective (raw V c) (unitType V c) (mask V c) :=
  (dat1 (F := Ideal) V c).arrAt_eq_of_cover 3 (Stsp.effective (raw V c) (unitType V c) (mask V c))
    (fun t _ => flushed_eq V c t) fun i => by
    have hi0 : (i 0).val < 2048 := (i 0).isLt
    have hi1 : (i 1).val < 2048 := (i 1).isLt
    refine ⟨(⟨(i 0).val / 256, by rw [show cfg1.N = grid1.N from rfl, N_1]; omega⟩ : Fin cfg1.N), flush1_3 _, ?_⟩
    rw [mem_blk]
    obtain ⟨-, -, -, -, -, -, e30, e31⟩ := block_index (⟨(i 0).val / 256, by rw [show cfg1.N = grid1.N from rfl, N_1]; omega⟩ : Fin cfg1.N)
    intro a
    match a with
    | ⟨0, _⟩ =>
      show win1_3.index _ (0 : Fin 2) * 256 ≤ (i 0).val ∧ (i 0).val < win1_3.index _ (0 : Fin 2) * 256 + 256
      rw [e30]
      show (i 0).val / 256 * 256 ≤ (i 0).val ∧ (i 0).val < (i 0).val / 256 * 256 + 256
      omega
    | ⟨1, _⟩ =>
      show win1_3.index _ (1 : Fin 2) * 2048 ≤ (i 1).val ∧ (i 1).val < win1_3.index _ (1 : Fin 2) * 2048 + 2048
      rw [e31]; omega

end Cert.KernelIdeal.EffectiveWeights

end
-- ==== Proof.StateUpdate.lean ====
import proofs.«416485_j1580547969043_3_alg».proof.Proof.Gen.KernelIdeal.Frame
import proofs.«416485_j1580547969043_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
The third launch's two synaptic outputs. Its grid has 32 points, one per block of 256 batch rows; at
block `t` it reads rows `256 t … 256 t + 255` of the hidden state, the resources and the utilisation, and the
whole of each `1 × 2048` parameter row, and stores the clipped updates of the resources and of the utilisation
for those rows. The 32 blocks tile each `8192 × 2048` output, so the launch leaves `Stsp.resources` and
`Stsp.utilisation` of the arrays it found.

Stated for any contents `V` of the buffers at the launch's entry.
-/

set_option maxRecDepth 16384

noncomputable section

open Idealize.ShloMosaic Idealize.ShloMosaic.TcCoe Idealize.SL.Sem
open Idealize.ShloMosaic.Pipeline (Dat)

namespace Cert.KernelIdeal.StateUpdate

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The arrays the launch reads, at their literal types. -/
abbrev hid (c : Dev nD) : Stsp.Mat 8192 2048 := V c main_arg1
abbrev res (c : Dev nD) : Stsp.Mat 8192 2048 := V c main_arg2
abbrev util (c : Dev nD) : Stsp.Mat 8192 2048 := V c main_arg3
abbrev alphaF (c : Dev nD) : Stsp.Mat 1 2048 := V c main_arg7
abbrev alphaD (c : Dev nD) : Stsp.Mat 1 2048 := V c main_arg8
abbrev baseU (c : Dev nD) : Stsp.Mat 1 2048 := V c main_arg9
abbrev dyn (c : Dev nD) : Stsp.Mat 1 2048 := V c main_arg10

/-- A parameter row broadcast over the 256 rows of a block, read at an entry: the row at the entry's column. -/
theorem row_read (v : Vec Ideal S1x2048 .f32) (p : Fin 256) (q : Fin 2048) :
    broadcastTo S256x2048 v broadcasts_S1x2048_S256x2048 (ix2 p q) = v (ix2 (0 : Fin 1) q) :=
  broadcastTo_apply v broadcasts_S1x2048_S256x2048 (ix2 p q) (ix2 (0 : Fin 1) q) (fun a => by
    match a with
    | ⟨0, _⟩ => rfl
    | ⟨1, _⟩ => rfl)

/-- The stored resources payload at an entry of a block: the depression update of the block's entries there,
    each parameter row read at the entry's column. -/
theorem resources_payload (h x u : Vec Ideal S256x2048 .f32) (ad g : Vec Ideal S1x2048 .f32) (p : Fin 256) (q : Fin 2048) :
    k2_pay4 (F := Ideal) h x u ad g (ix2 p q)
      = Stsp.depress (h (ix2 p q)) (x (ix2 p q)) (u (ix2 p q)) (ad (ix2 (0 : Fin 1) q)) (g (ix2 (0 : Fin 1) q)) := by
  unfold k2_pay4
  simp only [minimumf_apply, maximumf_apply, broadcast_apply, addf_apply, mulf_apply, subf_apply]
  rw [row_read ad p q, row_read g p q]
  rfl

/-- The stored utilisation payload at an entry of a block: the facilitation update there. The product of the
    time step with the baseline row is formed on the row and then broadcast, so it is read at the entry's
    column like the other rows. -/
theorem utilisation_payload (h u : Vec Ideal S256x2048 .f32) (af U g : Vec Ideal S1x2048 .f32) (p : Fin 256) (q : Fin 2048) :
    k2_pay1 (F := Ideal) (k2_pay3 h u af U g) (Scalar.ofBits .f32 0x00000000#32) (ix2 p q)
      = Stsp.facilitate (h (ix2 p q)) (u (ix2 p q)) (af (ix2 (0 : Fin 1) q)) (U (ix2 (0 : Fin 1) q)) (g (ix2 (0 : Fin 1) q)) := by
  unfold k2_pay1 k2_pay3
  simp only [minimumf_apply, maximumf_apply, broadcast_apply, addf_apply, mulf_apply, subf_apply]
  rw [row_read U p q, row_read af p q, row_read g p q, row_read _ p q]
  rfl

/-- Where each window's block sits at a grid point: the row windows (hidden state, resources, utilisation and the
    two outputs) at block row `t`, column block 0; each parameter row at block (0, 0). -/
theorem block_index : ∀ t : Fin cfg2.N,
    (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_12.index t (0 : Fin 2) = t.val ∧ win2_12.index t (1 : Fin 2) = 0)
    ∧ (win2_13.index t (0 : Fin 2) = t.val ∧ win2_13.index t (1 : Fin 2) = 0) :=
  (by decide +kernel : ∀ t : Fin grid2.N, _)

/-- What a point writes back to the resources output is the block of `Stsp.resources`: the payload at entry
    `(p, q)` of the block is the depression update of the three state blocks' entries there and of the two
    parameter rows at column `q`; the state blocks sit where the output block sits, and the output entry's
    row of a parameter array is its column `q` again. -/
theorem flushed_eq_res (c : Dev nD) (t : Fin cfg2.N) :
    (dat2 (F := Ideal) V c).flushed 12 t
      = ((cfg2.win 12).blk t).view.read (Elt Ideal)
          (Stsp.resources (hid V c) (res V c) (util V c) (alphaD V c) (dyn V c)) := by
  show (cfg2.win 12).cut (grid2.coords t) ((dat2 V c).after 12 t) = _
  rw [after2_12]
  unfold out2_12
  rw [View.canon_unit_zero hz]
  simp only [View.ld_unit_zero (S := S256x2048) hz, View.ld_unit_zero (S := S1x2048) hz]
  funext j
  obtain ⟨p, q, rfl⟩ : ∃ (p : Fin 256) (q : Fin 2048), j = ix2 p q := ⟨j 0, j 1, eq_ix2 j⟩
  refine (resources_payload (iblk2 V c 1 t) (iblk2 V c 2 t) (iblk2 V c 3 t) (iblk2 V c 8 t) (iblk2 V c 10 t) p q).trans ?_
  obtain ⟨⟨a10, a11⟩, ⟨a20, a21⟩, ⟨a30, a31⟩, -, ⟨a80, a81⟩, -, ⟨a100, a101⟩, ⟨b0, b1⟩, -⟩ := block_index t
  show Stsp.depress (hid V c (((cfg2.win 1).blk t).view.emb (ix2 p q)))
        (res V c (((cfg2.win 2).blk t).view.emb (ix2 p q)))
        (util V c (((cfg2.win 3).blk t).view.emb (ix2 p q)))
        (alphaD V c (((cfg2.win 8).blk t).view.emb (ix2 (0 : Fin 1) q)))
        (dyn V c (((cfg2.win 10).blk t).view.emb (ix2 (0 : Fin 1) q)))
     = Stsp.depress (hid V c (((cfg2.win 12).blk t).view.emb (ix2 p q)))
        (res V c (((cfg2.win 12).blk t).view.emb (ix2 p q)))
        (util V c (((cfg2.win 12).blk t).view.emb (ix2 p q)))
        (alphaD V c (Stsp.rowOf (((cfg2.win 12).blk t).view.emb (ix2 p q))))
        (dyn V c (Stsp.rowOf (((cfg2.win 12).blk t).view.emb (ix2 p q))))
  have h1 : ((cfg2.win 1).blk t).view.emb (ix2 p q) = ((cfg2.win 12).blk t).view.emb (ix2 p q) := by
    funext a; apply Fin.ext
    match a with
    | ⟨0, _⟩ => show win2_1.index t (0 : Fin 2) * 256 + 1 * p.val = win2_12.index t (0 : Fin 2) * 256 + 1 * p.val; rw [a10, b0]
    | ⟨1, _⟩ => show win2_1.index t (1 : Fin 2) * 2048 + 1 * q.val = win2_12.index t (1 : Fin 2) * 2048 + 1 * q.val; rw [a11, b1]
  have h2 : ((cfg2.win 2).blk t).view.emb (ix2 p q) = ((cfg2.win 12).blk t).view.emb (ix2 p q) := by
    funext a; apply Fin.ext
    match a with
    | ⟨0, _⟩ => show win2_2.index t (0 : Fin 2) * 256 + 1 * p.val = win2_12.index t (0 : Fin 2) * 256 + 1 * p.val; rw [a20, b0]
    | ⟨1, _⟩ => show win2_2.index t (1 : Fin 2) * 2048 + 1 * q.val = win2_12.index t (1 : Fin 2) * 2048 + 1 * q.val; rw [a21, b1]
  have h3 : ((cfg2.win 3).blk t).view.emb (ix2 p q) = ((cfg2.win 12).blk t).view.emb (ix2 p q) := by
    funext a; apply Fin.ext
    match a with
    | ⟨0, _⟩ => show win2_3.index t (0 : Fin 2) * 256 + 1 * p.val = win2_12.index t (0 : Fin 2) * 256 + 1 * p.val; rw [a30, b0]
    | ⟨1, _⟩ => show win2_3.index t (1 : Fin 2) * 2048 + 1 * q.val = win2_12.index t (1 : Fin 2) * 2048 + 1 * q.val; rw [a31, b1]
  have h8 : ((cfg2.win 8).blk t).view.emb (ix2 (0 : Fin 1) q) = Stsp.rowOf (((cfg2.win 12).blk t).view.emb (ix2 p q)) := by
    funext a; apply Fin.ext
    match a with
    | ⟨0, _⟩ => show win2_8.index t (0 : Fin 2) * 1 + 1 * 0 = 0; rw [a80]
    | ⟨1, _⟩ => show win2_8.index t (1 : Fin 2) * 2048 + 1 * q.val = win2_12.index t (1 : Fin 2) * 2048 + 1 * q.val; rw [a81, b1]
  have h10 : ((cfg2.win 10).blk t).view.emb (ix2 (0 : Fin 1) q) = Stsp.rowOf (((cfg2.win 12).blk t).view.emb (ix2 p q)) := by
    funext a; apply Fin.ext
    match a with
    | ⟨0, _⟩ => show win2_10.index t (0 : Fin 2) * 1 + 1 * 0 = 0; rw [a100]
    | ⟨1, _⟩ => show win2_10.index t (1 : Fin 2) * 2048 + 1 * q.val = win2_12.index t (1 : Fin 2) * 2048 + 1 * q.val; rw [a101, b1]
  rw [h1, h2, h3, h8, h10]

/-- An index of the output array lies in the resources output's block at a point iff each coordinate lies in
    the block's range. -/
theorem mem_blk_res (t : Fin cfg2.N) (i : S8192x2048.Idx) :
    i ∈ ((cfg2.win 12).blk t).view.set ↔ ∀ a : Fin 2, win2_12.index t a * S256x2048.size a ≤ (i a).val
      ∧ (i a).val < win2_12.index t a * S256x2048.size a + S256x2048.size a := by
  show i ∈ ((View.whole main_v4_1).slice (win2_12.rect t)).set ↔ _
  rw [View.set_slice_whole, Rect.mem_set_unit]
  exact Iff.rfl

/-- The launch leaves the new resources in its second output array: row `r` of the array lies in the block of
    point `r / 256`, so the 32 blocks cover it. -/
theorem resources_final (c : Dev nD) :
    (dat2 (F := Ideal) V c).arrAt 12 cfg2.N = Stsp.resources (hid V c) (res V c) (util V c) (alphaD V c) (dyn V c) :=
  (dat2 (F := Ideal) V c).arrAt_eq_of_cover 12 (Stsp.resources (hid V c) (res V c) (util V c) (alphaD V c) (dyn V c))
    (fun t _ => flushed_eq_res V c t) fun i => by
    have hi0 : (i 0).val < 8192 := (i 0).isLt
    have hi1 : (i 1).val < 2048 := (i 1).isLt
    have hN : (i 0).val / 256 < cfg2.N := by
      show (i 0).val / 256 < grid2.N
      rw [N_2]; omega
    refine ⟨⟨(i 0).val / 256, hN⟩, flush2_12 _, ?_⟩
    rw [mem_blk_res]
    obtain ⟨-, -, -, -, -, -, -, ⟨b0, b1⟩, -⟩ := block_index ⟨(i 0).val / 256, hN⟩
    intro a
    match a with
    | ⟨0, _⟩ =>
      show win2_12.index ⟨(i 0).val / 256, hN⟩ (0 : Fin 2) * 256 ≤ (i 0).val
        ∧ (i 0).val < win2_12.index ⟨(i 0).val / 256, hN⟩ (0 : Fin 2) * 256 + 256
      rw [b0]
      show (i 0).val / 256 * 256 ≤ (i 0).val ∧ (i 0).val < (i 0).val / 256 * 256 + 256
      omega
    | ⟨1, _⟩ =>
      show win2_12.index ⟨(i 0).val / 256, hN⟩ (1 : Fin 2) * 2048 ≤ (i 1).val
        ∧ (i 1).val < win2_12.index ⟨(i 0).val / 256, hN⟩ (1 : Fin 2) * 2048 + 2048
      rw [b1]; omega

/-- What a point writes back to the utilisation output is the block of `Stsp.utilisation`: the payload at entry
    `(p, q)` of the block is the facilitation update of the hidden-state and utilisation blocks' entries there
    and of the three parameter rows at column `q`; the two state blocks sit where the output block sits. -/
theorem flushed_eq_util (c : Dev nD) (t : Fin cfg2.N) :
    (dat2 (F := Ideal) V c).flushed 13 t
      = ((cfg2.win 13).blk t).view.read (Elt Ideal)
          (Stsp.utilisation (hid V c) (util V c) (alphaF V c) (baseU V c) (dyn V c)) := by
  show (cfg2.win 13).cut (grid2.coords t) ((dat2 V c).after 13 t) = _
  rw [after2_13]
  unfold out2_13
  rw [View.canon_unit_zero hz]
  simp only [View.ld_unit_zero (S := S256x2048) hz, View.ld_unit_zero (S := S1x2048) hz]
  funext j
  obtain ⟨p, q, rfl⟩ : ∃ (p : Fin 256) (q : Fin 2048), j = ix2 p q := ⟨j 0, j 1, eq_ix2 j⟩
  refine (utilisation_payload (iblk2 V c 1 t) (iblk2 V c 3 t) (iblk2 V c 7 t) (iblk2 V c 9 t) (iblk2 V c 10 t) p q).trans ?_
  obtain ⟨⟨a10, a11⟩, -, ⟨a30, a31⟩, ⟨a70, a71⟩, -, ⟨a90, a91⟩, ⟨a100, a101⟩, -, ⟨b0, b1⟩⟩ := block_index t
  show Stsp.facilitate (hid V c (((cfg2.win 1).blk t).view.emb (ix2 p q)))
        (util V c (((cfg2.win 3).blk t).view.emb (ix2 p q)))
        (alphaF V c (((cfg2.win 7).blk t).view.emb (ix2 (0 : Fin 1) q)))
        (baseU V c (((cfg2.win 9).blk t).view.emb (ix2 (0 : Fin 1) q)))
        (dyn V c (((cfg2.win 10).blk t).view.emb (ix2 (0 : Fin 1) q)))
     = Stsp.facilitate (hid V c (((cfg2.win 13).blk t).view.emb (ix2 p q)))
        (util V c (((cfg2.win 13).blk t).view.emb (ix2 p q)))
        (alphaF V c (Stsp.rowOf (((cfg2.win 13).blk t).view.emb (ix2 p q))))
        (baseU V c (Stsp.rowOf (((cfg2.win 13).blk t).view.emb (ix2 p q))))
        (dyn V c (Stsp.rowOf (((cfg2.win 13).blk t).view.emb (ix2 p q))))
  have h1 : ((cfg2.win 1).blk t).view.emb (ix2 p q) = ((cfg2.win 13).blk t).view.emb (ix2 p q) := by
    funext a; apply Fin.ext
    match a with
    | ⟨0, _⟩ => show win2_1.index t (0 : Fin 2) * 256 + 1 * p.val = win2_13.index t (0 : Fin 2) * 256 + 1 * p.val; rw [a10, b0]
    | ⟨1, _⟩ => show win2_1.index t (1 : Fin 2) * 2048 + 1 * q.val = win2_13.index t (1 : Fin 2) * 2048 + 1 * q.val; rw [a11, b1]
  have h3 : ((cfg2.win 3).blk t).view.emb (ix2 p q) = ((cfg2.win 13).blk t).view.emb (ix2 p q) := by
    funext a; apply Fin.ext
    match a with
    | ⟨0, _⟩ => show win2_3.index t (0 : Fin 2) * 256 + 1 * p.val = win2_13.index t (0 : Fin 2) * 256 + 1 * p.val; rw [a30, b0]
    | ⟨1, _⟩ => show win2_3.index t (1 : Fin 2) * 2048 + 1 * q.val = win2_13.index t (1 : Fin 2) * 2048 + 1 * q.val; rw [a31, b1]
  have h7 : ((cfg2.win 7).blk t).view.emb (ix2 (0 : Fin 1) q) = Stsp.rowOf (((cfg2.win 13).blk t).view.emb (ix2 p q)) := by
    funext a; apply Fin.ext
    match a with
    | ⟨0, _⟩ => show win2_7.index t (0 : Fin 2) * 1 + 1 * 0 = 0; rw [a70]
    | ⟨1, _⟩ => show win2_7.index t (1 : Fin 2) * 2048 + 1 * q.val = win2_13.index t (1 : Fin 2) * 2048 + 1 * q.val; rw [a71, b1]
  have h9 : ((cfg2.win 9).blk t).view.emb (ix2 (0 : Fin 1) q) = Stsp.rowOf (((cfg2.win 13).blk t).view.emb (ix2 p q)) := by
    funext a; apply Fin.ext
    match a with
    | ⟨0, _⟩ => show win2_9.index t (0 : Fin 2) * 1 + 1 * 0 = 0; rw [a90]
    | ⟨1, _⟩ => show win2_9.index t (1 : Fin 2) * 2048 + 1 * q.val = win2_13.index t (1 : Fin 2) * 2048 + 1 * q.val; rw [a91, b1]
  have h10 : ((cfg2.win 10).blk t).view.emb (ix2 (0 : Fin 1) q) = Stsp.rowOf (((cfg2.win 13).blk t).view.emb (ix2 p q)) := by
    funext a; apply Fin.ext
    match a with
    | ⟨0, _⟩ => show win2_10.index t (0 : Fin 2) * 1 + 1 * 0 = 0; rw [a100]
    | ⟨1, _⟩ => show win2_10.index t (1 : Fin 2) * 2048 + 1 * q.val = win2_13.index t (1 : Fin 2) * 2048 + 1 * q.val; rw [a101, b1]
  rw [h1, h3, h7, h9, h10]

/-- An index of the output array lies in the utilisation output's block at a point iff each coordinate lies in
    the block's range. -/
theorem mem_blk_util (t : Fin cfg2.N) (i : S8192x2048.Idx) :
    i ∈ ((cfg2.win 13).blk t).view.set ↔ ∀ a : Fin 2, win2_13.index t a * S256x2048.size a ≤ (i a).val
      ∧ (i a).val < win2_13.index t a * S256x2048.size a + S256x2048.size a := by
  show i ∈ ((View.whole main_v4_2).slice (win2_13.rect t)).set ↔ _
  rw [View.set_slice_whole, Rect.mem_set_unit]
  exact Iff.rfl

/-- The launch leaves the new utilisation in its third output array: the same cover, row `r` in the block of
    point `r / 256`. -/
theorem utilisation_final (c : Dev nD) :
    (dat2 (F := Ideal) V c).arrAt 13 cfg2.N = Stsp.utilisation (hid V c) (util V c) (alphaF V c) (baseU V c) (dyn V c) :=
  (dat2 (F := Ideal) V c).arrAt_eq_of_cover 13 (Stsp.utilisation (hid V c) (util V c) (alphaF V c) (baseU V c) (dyn V c))
    (fun t _ => flushed_eq_util V c t) fun i => by
    have hi0 : (i 0).val < 8192 := (i 0).isLt
    have hi1 : (i 1).val < 2048 := (i 1).isLt
    have hN : (i 0).val / 256 < cfg2.N := by
      show (i 0).val / 256 < grid2.N
      rw [N_2]; omega
    refine ⟨⟨(i 0).val / 256, hN⟩, flush2_13 _, ?_⟩
    rw [mem_blk_util]
    obtain ⟨-, -, -, -, -, -, -, -, ⟨b0, b1⟩⟩ := block_index ⟨(i 0).val / 256, hN⟩
    intro a
    match a with
    | ⟨0, _⟩ =>
      show win2_13.index ⟨(i 0).val / 256, hN⟩ (0 : Fin 2) * 256 ≤ (i 0).val
        ∧ (i 0).val < win2_13.index ⟨(i 0).val / 256, hN⟩ (0 : Fin 2) * 256 + 256
      rw [b0]
      show (i 0).val / 256 * 256 ≤ (i 0).val ∧ (i 0).val < (i 0).val / 256 * 256 + 256
      omega
    | ⟨1, _⟩ =>
      show win2_13.index ⟨(i 0).val / 256, hN⟩ (1 : Fin 2) * 2048 ≤ (i 1).val
        ∧ (i 1).val < win2_13.index ⟨(i 0).val / 256, hN⟩ (1 : Fin 2) * 2048 + 2048
      rw [b1]; omega

end Cert.KernelIdeal.StateUpdate

end
-- ==== Proof.HiddenUpdate.lean ====
import proofs.«416485_j1580547969043_3_alg».proof.Proof.Gen.KernelIdeal.Frame
import proofs.«416485_j1580547969043_3_alg».proof.Proof.Spec
import proofs.«416485_j1580547969043_3_alg».proof.Proof.StateUpdate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
The third launch's first output, the new hidden state. At block `t` of 256 batch rows it forms the gated
state for those rows, multiplies the rows' inputs by the whole rectified input weights and the gated rows
by the whole effective recurrent weights (each one matrix product over the full contraction, into a zero
accumulator), adds the bias row, rectifies, and mixes with the old hidden state. Each matrix product read at
an entry is a `Finset` sum over the contraction index; the changes of float format are the identity on the
extended reals. The 32 blocks tile the `8192 × 2048` output, so the launch leaves `Stsp.hidden` of the arrays
it found.

Stated for any contents `V` of the buffers at the launch's entry.
-/

set_option maxRecDepth 16384

noncomputable section

open Idealize.ShloMosaic Idealize.ShloMosaic.TcCoe Idealize.SL.Sem
open Idealize.ShloMosaic.Pipeline (Dat)

namespace Cert.KernelIdeal.HiddenUpdate

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The arrays the launch reads, at their literal types. -/
abbrev inp (c : Dev nD) : Stsp.Mat 8192 512 := V c main_arg0
abbrev hid (c : Dev nD) : Stsp.Mat 8192 2048 := V c main_arg1
abbrev res (c : Dev nD) : Stsp.Mat 8192 2048 := V c main_arg2
abbrev util (c : Dev nD) : Stsp.Mat 8192 2048 := V c main_arg3
abbrev wIn (c : Dev nD) : Stsp.Mat 512 2048 := V c main_v0
abbrev wRec (c : Dev nD) : Stsp.Mat 2048 2048 := V c main_v2
abbrev biasRow (c : Dev nD) : Stsp.Mat 1 2048 := V c main_v3
abbrev alphaF (c : Dev nD) : Stsp.Mat 1 2048 := V c main_arg7
abbrev alphaD (c : Dev nD) : Stsp.Mat 1 2048 := V c main_arg8
abbrev baseU (c : Dev nD) : Stsp.Mat 1 2048 := V c main_arg9
abbrev dyn (c : Dev nD) : Stsp.Mat 1 2048 := V c main_arg10

/-! ## The two matrix products read at an entry

Each product contracts the left operand's column axis with the right operand's row axis, so at output entry
`(p, q)` and contraction coordinate `k` it reads the left operand at `(p, k)` and the right at `(k, q)`. -/

theorem lhsIn_0 (i : S256x2048.Idx) (r : dot_S256x512_S512x2048_S256x2048_1_0_0_1_n_n.contr.Idx) :
    (dot_S256x512_S512x2048_S256x2048_1_0_0_1_n_n.lhsIdx i r 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhsIn_1 (i : S256x2048.Idx) (r : dot_S256x512_S512x2048_S256x2048_1_0_0_1_n_n.contr.Idx) :
    (dot_S256x512_S512x2048_S256x2048_1_0_0_1_n_n.lhsIdx i r 1).val = (r ⟨0, by decide⟩).val :=
  dot_S256x512_S512x2048_S256x2048_1_0_0_1_n_n.lhsIdx_val_of_single rfl i r
theorem rhsIn_0 (i : S256x2048.Idx) (r : dot_S256x512_S512x2048_S256x2048_1_0_0_1_n_n.contr.Idx) :
    (dot_S256x512_S512x2048_S256x2048_1_0_0_1_n_n.rhsIdx i r 0).val = (r ⟨0, by decide⟩).val :=
  dot_S256x512_S512x2048_S256x2048_1_0_0_1_n_n.rhsIdx_val_of_single rfl i r
theorem rhsIn_1 (i : S256x2048.Idx) (r : dot_S256x512_S512x2048_S256x2048_1_0_0_1_n_n.contr.Idx) :
    (dot_S256x512_S512x2048_S256x2048_1_0_0_1_n_n.rhsIdx i r 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The input product into the zero accumulator, at entry `(p, q)`: the sum over the 512 input features. -/
theorem matmulIn_apply (a : FVec Ideal S256x512 .bf16) (b : FVec Ideal S512x2048 .bf16) (p : Fin 256) (q : Fin 2048) :
    matmul dot_S256x512_S512x2048_S256x2048_1_0_0_1_n_n none a b (constant (F := Ideal) S256x2048 .f32 0x00000000#32) (ix2 p q)
      = ∑ k : Fin 512, a (ix2 p k) * b (ix2 k q) := by
  show FloatOps.matmul dot_S256x512_S512x2048_S256x2048_1_0_0_1_n_n none a b (constant (F := Ideal) S256x2048 .f32 0x00000000#32) (ix2 p q) = _
  rw [Ideal.matmul_constant_zero_apply, ← Equiv.sum_comp (ValueIdx.contrEquiv1 dot_S256x512_S512x2048_S256x2048_1_0_0_1_n_n 512 rfl rfl).symm]
  refine Finset.sum_congr rfl fun k _ => ?_
  have hk := ValueIdx.contrEquiv1_symm_val dot_S256x512_S512x2048_S256x2048_1_0_0_1_n_n 512 rfl rfl k
  have el : dot_S256x512_S512x2048_S256x2048_1_0_0_1_n_n.lhsIdx (ix2 p q) ((ValueIdx.contrEquiv1 dot_S256x512_S512x2048_S256x2048_1_0_0_1_n_n 512 rfl rfl).symm k) = ix2 p k := funext fun d => Fin.ext (by
    match d with
    | ⟨0, _⟩ => exact lhsIn_0 _ _
    | ⟨1, _⟩ => exact (lhsIn_1 _ _).trans hk)
  have er : dot_S256x512_S512x2048_S256x2048_1_0_0_1_n_n.rhsIdx (ix2 p q) ((ValueIdx.contrEquiv1 dot_S256x512_S512x2048_S256x2048_1_0_0_1_n_n 512 rfl rfl).symm k) = ix2 k q := funext fun d => Fin.ext (by
    match d with
    | ⟨0, _⟩ => exact (rhsIn_0 _ _).trans hk
    | ⟨1, _⟩ => exact rhsIn_1 _ _)
  rw [el, er]

theorem lhsRec_0 (i : S256x2048.Idx) (r : dot_S256x2048_S2048x2048_S256x2048_1_0_0_1_n_n.contr.Idx) :
    (dot_S256x2048_S2048x2048_S256x2048_1_0_0_1_n_n.lhsIdx i r 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhsRec_1 (i : S256x2048.Idx) (r : dot_S256x2048_S2048x2048_S256x2048_1_0_0_1_n_n.contr.Idx) :
    (dot_S256x2048_S2048x2048_S256x2048_1_0_0_1_n_n.lhsIdx i r 1).val = (r ⟨0, by decide⟩).val :=
  dot_S256x2048_S2048x2048_S256x2048_1_0_0_1_n_n.lhsIdx_val_of_single rfl i r
theorem rhsRec_0 (i : S256x2048.Idx) (r : dot_S256x2048_S2048x2048_S256x2048_1_0_0_1_n_n.contr.Idx) :
    (dot_S256x2048_S2048x2048_S256x2048_1_0_0_1_n_n.rhsIdx i r 0).val = (r ⟨0, by decide⟩).val :=
  dot_S256x2048_S2048x2048_S256x2048_1_0_0_1_n_n.rhsIdx_val_of_single rfl i r
theorem rhsRec_1 (i : S256x2048.Idx) (r : dot_S256x2048_S2048x2048_S256x2048_1_0_0_1_n_n.contr.Idx) :
    (dot_S256x2048_S2048x2048_S256x2048_1_0_0_1_n_n.rhsIdx i r 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The recurrent product into the zero accumulator, at entry `(p, q)`: the sum over the 2048 hidden units. -/
theorem matmulRec_apply (a : FVec Ideal S256x2048 .bf16) (b : FVec Ideal S2048x2048 .bf16) (p : Fin 256) (q : Fin 2048) :
    matmul dot_S256x2048_S2048x2048_S256x2048_1_0_0_1_n_n none a b (constant (F := Ideal) S256x2048 .f32 0x00000000#32) (ix2 p q)
      = ∑ k : Fin 2048, a (ix2 p k) * b (ix2 k q) := by
  show FloatOps.matmul dot_S256x2048_S2048x2048_S256x2048_1_0_0_1_n_n none a b (constant (F := Ideal) S256x2048 .f32 0x00000000#32) (ix2 p q) = _
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun d => Fin.ext (by
    match d with
    | ⟨0, _⟩ => exact lhsRec_0 _ _
    | ⟨1, _⟩ => exact (lhsRec_1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun d => Fin.ext (by
    match d with
    | ⟨0, _⟩ => exact (rhsRec_0 _ _).trans hk
    | ⟨1, _⟩ => exact rhsRec_1 _ _)
  rw [el, er]

/-! ## The stored payload at an entry -/

/-- The gated state the recurrent product multiplies, at entry `(p, k)` of a block: the clipped utilisation
    update times the clipped resources update times the old state there. -/
theorem gated_payload (h x u : Vec Ideal S256x2048 .f32) (af ad U g : Vec Ideal S1x2048 .f32) (p : Fin 256) (k : Fin 2048) :
    truncf .bf16 (mulf (mulf (k2_pay1 (F := Ideal) (k2_pay3 h u af U g) (Scalar.ofBits .f32 0x00000000#32)) (k2_pay4 h x u ad g)) h) bitsLt_bf16_f32 (ix2 p k)
      = (Stsp.facilitate (h (ix2 p k)) (u (ix2 p k)) (af (ix2 (0 : Fin 1) k)) (U (ix2 (0 : Fin 1) k)) (g (ix2 (0 : Fin 1) k))
          * Stsp.depress (h (ix2 p k)) (x (ix2 p k)) (u (ix2 p k)) (ad (ix2 (0 : Fin 1) k)) (g (ix2 (0 : Fin 1) k))) * h (ix2 p k) := by
  rw [truncf_apply, mulf_apply, mulf_apply, StateUpdate.utilisation_payload h u af U g p k,
    StateUpdate.resources_payload h x u ad g p k]

/-- The stored payload at entry `(p, q)` of a block of 256 rows: the leaked old state plus the gain times the
    rectified drive, the drive being the input product plus the recurrent product of the gated state plus the
    bias at column `q`. -/
theorem hidden_payload (h x u : Vec Ideal S256x2048 .f32) (af ad U g bias : Vec Ideal S1x2048 .f32)
    (a : Vec Ideal S256x512 .f32) (wi : Vec Ideal S512x2048 .bf16) (wr : Vec Ideal S2048x2048 .bf16)
    (p : Fin 256) (q : Fin 2048) :
    k2_pay2 (F := Ideal) h (k2_pay3 h u af U g) (k2_pay4 h x u ad g) (Scalar.ofBits .f32 0x00000000#32) a wi wr bias (ix2 p q)
      = h (ix2 p q) * Stsp.leak + Stsp.gain * max (((∑ k : Fin 512, a (ix2 p k) * wi (ix2 k q))
          + (∑ k : Fin 2048, ((Stsp.facilitate (h (ix2 p k)) (u (ix2 p k)) (af (ix2 (0 : Fin 1) k)) (U (ix2 (0 : Fin 1) k)) (g (ix2 (0 : Fin 1) k))
              * Stsp.depress (h (ix2 p k)) (x (ix2 p k)) (u (ix2 p k)) (ad (ix2 (0 : Fin 1) k)) (g (ix2 (0 : Fin 1) k))) * h (ix2 p k)) * wr (ix2 k q)))
          + bias (ix2 (0 : Fin 1) q)) Stsp.zero := by
  unfold k2_pay2
  simp only [addf_apply, mulf_apply, maximumf_apply, broadcast_apply, shapeCast_self]
  rw [matmulIn_apply, matmulRec_apply,
    broadcastTo_apply bias broadcasts_S1x2048_S256x2048 (ix2 p q) (ix2 (0 : Fin 1) q) (fun d => by
      match d with
      | ⟨0, _⟩ => rfl
      | ⟨1, _⟩ => rfl)]
  have hg : ∀ k : Fin 2048, truncf .bf16 (mulf (mulf (k2_pay1 (F := Ideal) (k2_pay3 h u af U g) (Scalar.ofBits .f32 0x00000000#32)) (k2_pay4 h x u ad g)) h) bitsLt_bf16_f32 (ix2 p k) * wr (ix2 k q)
      = ((Stsp.facilitate (h (ix2 p k)) (u (ix2 p k)) (af (ix2 (0 : Fin 1) k)) (U (ix2 (0 : Fin 1) k)) (g (ix2 (0 : Fin 1) k))
          * Stsp.depress (h (ix2 p k)) (x (ix2 p k)) (u (ix2 p k)) (ad (ix2 (0 : Fin 1) k)) (g (ix2 (0 : Fin 1) k))) * h (ix2 p k)) * wr (ix2 k q) :=
    fun k => by rw [gated_payload h x u af ad U g p k]
  rw [Finset.sum_congr rfl fun k _ => hg k]
  rfl

/-! ## Where the blocks sit -/

/-- At point `t` the four row-block inputs and the output sit at block `(t, 0)`. -/
theorem block_index_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_11.index t (0 : Fin 2) = t.val ∧ win2_11.index t (1 : Fin 2) = 0) :=
  (by decide +kernel : ∀ t : Fin grid2.N, _)

/-- At every point the two weight arrays and the five parameter rows sit at block `(0, 0)`: each is read whole. -/
theorem block_index_whole : ∀ t : Fin cfg2.N,
    (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0) :=
  (by decide +kernel : ∀ t : Fin grid2.N, _)

/-! ## Entries of the blocks as entries of the arrays

Entry `(p, q)` of the output's block at point `t` is entry `(256 t + p, q)` of the output array. The row-block
inputs sit in the same rows; the weight arrays and the parameter rows are read whole, so a block entry is the array
entry with the same coordinates. -/

/-- Entry `(p, k)` of the input block is in the output entry's row, at column `k`. -/
theorem emb_inp (t : Fin cfg2.N) (p : Fin 256) (q : Fin 2048) (k : Fin 512) :
    ((cfg2.win 0).blk t).view.emb (ix2 p k) = ix2 ((((cfg2.win 11).blk t).view.emb (ix2 p q)) 0) k := by
  obtain ⟨⟨e0, e1⟩, -, -, -, ⟨o0, o1⟩⟩ := block_index_rows t
  funext d; apply Fin.ext
  match d with
  | ⟨0, _⟩ => show win2_0.index t (0 : Fin 2) * 256 + 1 * p.val = win2_11.index t (0 : Fin 2) * 256 + 1 * p.val; rw [e0, o0]
  | ⟨1, _⟩ => show win2_0.index t (1 : Fin 2) * 512 + 1 * k.val = k.val; rw [e1]; omega

/-- Entry `(p, q)` of the old state's block is the output entry's place. -/
theorem emb_hid_out (t : Fin cfg2.N) (p : Fin 256) (q : Fin 2048) :
    ((cfg2.win 1).blk t).view.emb (ix2 p q) = ((cfg2.win 11).blk t).view.emb (ix2 p q) := by
  obtain ⟨-, ⟨e0, e1⟩, -, -, ⟨o0, o1⟩⟩ := block_index_rows t
  funext d; apply Fin.ext
  match d with
  | ⟨0, _⟩ => show win2_1.index t (0 : Fin 2) * 256 + 1 * p.val = win2_11.index t (0 : Fin 2) * 256 + 1 * p.val; rw [e0, o0]
  | ⟨1, _⟩ => show win2_1.index t (1 : Fin 2) * 2048 + 1 * q.val = win2_11.index t (1 : Fin 2) * 2048 + 1 * q.val; rw [e1, o1]

/-- Entry `(p, k)` of the old state's block is in the output entry's row, at column `k`. -/
theorem emb_hid (t : Fin cfg2.N) (p : Fin 256) (q : Fin 2048) (k : Fin 2048) :
    ((cfg2.win 1).blk t).view.emb (ix2 p k) = ix2 ((((cfg2.win 11).blk t).view.emb (ix2 p q)) 0) k := by
  obtain ⟨-, ⟨e0, e1⟩, -, -, ⟨o0, o1⟩⟩ := block_index_rows t
  funext d; apply Fin.ext
  match d with
  | ⟨0, _⟩ => show win2_1.index t (0 : Fin 2) * 256 + 1 * p.val = win2_11.index t (0 : Fin 2) * 256 + 1 * p.val; rw [e0, o0]
  | ⟨1, _⟩ => show win2_1.index t (1 : Fin 2) * 2048 + 1 * k.val = k.val; rw [e1]; omega

/-- The same for the resources' block. -/
theorem emb_res (t : Fin cfg2.N) (p : Fin 256) (q : Fin 2048) (k : Fin 2048) :
    ((cfg2.win 2).blk t).view.emb (ix2 p k) = ix2 ((((cfg2.win 11).blk t).view.emb (ix2 p q)) 0) k := by
  obtain ⟨-, -, ⟨e0, e1⟩, -, ⟨o0, o1⟩⟩ := block_index_rows t
  funext d; apply Fin.ext
  match d with
  | ⟨0, _⟩ => show win2_2.index t (0 : Fin 2) * 256 + 1 * p.val = win2_11.index t (0 : Fin 2) * 256 + 1 * p.val; rw [e0, o0]
  | ⟨1, _⟩ => show win2_2.index t (1 : Fin 2) * 2048 + 1 * k.val = k.val; rw [e1]; omega

/-- The same for the utilisation's block. -/
theorem emb_util (t : Fin cfg2.N) (p : Fin 256) (q : Fin 2048) (k : Fin 2048) :
    ((cfg2.win 3).blk t).view.emb (ix2 p k) = ix2 ((((cfg2.win 11).blk t).view.emb (ix2 p q)) 0) k := by
  obtain ⟨-, -, -, ⟨e0, e1⟩, ⟨o0, o1⟩⟩ := block_index_rows t
  funext d; apply Fin.ext
  match d with
  | ⟨0, _⟩ => show win2_3.index t (0 : Fin 2) * 256 + 1 * p.val = win2_11.index t (0 : Fin 2) * 256 + 1 * p.val; rw [e0, o0]
  | ⟨1, _⟩ => show win2_3.index t (1 : Fin 2) * 2048 + 1 * k.val = k.val; rw [e1]; omega

/-- Entry `(k, q)` of the input weights, read whole, is row `k` at the output entry's column. -/
theorem emb_wIn (t : Fin cfg2.N) (p : Fin 256) (q : Fin 2048) (k : Fin 512) :
    ((cfg2.win 4).blk t).view.emb (ix2 k q) = ix2 k ((((cfg2.win 11).blk t).view.emb (ix2 p q)) 1) := by
  obtain ⟨⟨e0, e1⟩, -⟩ := block_index_whole t
  obtain ⟨-, -, -, -, ⟨o0, o1⟩⟩ := block_index_rows t
  funext d; apply Fin.ext
  match d with
  | ⟨0, _⟩ => show win2_4.index t (0 : Fin 2) * 512 + 1 * k.val = k.val; rw [e0]; omega
  | ⟨1, _⟩ => show win2_4.index t (1 : Fin 2) * 2048 + 1 * q.val = win2_11.index t (1 : Fin 2) * 2048 + 1 * q.val; rw [e1, o1]

/-- Entry `(k, q)` of the recurrent weights, read whole, is row `k` at the output entry's column. -/
theorem emb_wRec (t : Fin cfg2.N) (p : Fin 256) (q : Fin 2048) (k : Fin 2048) :
    ((cfg2.win 5).blk t).view.emb (ix2 k q) = ix2 k ((((cfg2.win 11).blk t).view.emb (ix2 p q)) 1) := by
  obtain ⟨-, ⟨e0, e1⟩, -⟩ := block_index_whole t
  obtain ⟨-, -, -, -, ⟨o0, o1⟩⟩ := block_index_rows t
  funext d; apply Fin.ext
  match d with
  | ⟨0, _⟩ => show win2_5.index t (0 : Fin 2) * 2048 + 1 * k.val = k.val; rw [e0]; omega
  | ⟨1, _⟩ => show win2_5.index t (1 : Fin 2) * 2048 + 1 * q.val = win2_11.index t (1 : Fin 2) * 2048 + 1 * q.val; rw [e1, o1]

/-- The bias row's entry at column `q` is the row of the output entry. -/
theorem emb_bias (t : Fin cfg2.N) (p : Fin 256) (q : Fin 2048) :
    ((cfg2.win 6).blk t).view.emb (ix2 (0 : Fin 1) q) = ix2 (0 : Fin 1) ((((cfg2.win 11).blk t).view.emb (ix2 p q)) 1) := by
  obtain ⟨-, -, ⟨e0, e1⟩, -⟩ := block_index_whole t
  obtain ⟨-, -, -, -, ⟨o0, o1⟩⟩ := block_index_rows t
  funext d; apply Fin.ext
  match d with
  | ⟨0, _⟩ => show win2_6.index t (0 : Fin 2) * 1 + 1 * 0 = 0; rw [e0]
  | ⟨1, _⟩ => show win2_6.index t (1 : Fin 2) * 2048 + 1 * q.val = win2_11.index t (1 : Fin 2) * 2048 + 1 * q.val; rw [e1, o1]

/-- Each parameter row, read whole: its block's entry at column `k` is the row's entry at column `k`. -/
theorem emb_alphaF (t : Fin cfg2.N) (k : Fin 2048) :
    ((cfg2.win 7).blk t).view.emb (ix2 (0 : Fin 1) k) = ix2 (0 : Fin 1) k := by
  obtain ⟨-, -, -, ⟨e0, e1⟩, -⟩ := block_index_whole t
  funext d; apply Fin.ext
  match d with
  | ⟨0, _⟩ => show win2_7.index t (0 : Fin 2) * 1 + 1 * 0 = 0; rw [e0]
  | ⟨1, _⟩ => show win2_7.index t (1 : Fin 2) * 2048 + 1 * k.val = k.val; rw [e1]; omega
theorem emb_alphaD (t : Fin cfg2.N) (k : Fin 2048) :
    ((cfg2.win 8).blk t).view.emb (ix2 (0 : Fin 1) k) = ix2 (0 : Fin 1) k := by
  obtain ⟨-, -, -, -, ⟨e0, e1⟩, -⟩ := block_index_whole t
  funext d; apply Fin.ext
  match d with
  | ⟨0, _⟩ => show win2_8.index t (0 : Fin 2) * 1 + 1 * 0 = 0; rw [e0]
  | ⟨1, _⟩ => show win2_8.index t (1 : Fin 2) * 2048 + 1 * k.val = k.val; rw [e1]; omega
theorem emb_baseU (t : Fin cfg2.N) (k : Fin 2048) :
    ((cfg2.win 9).blk t).view.emb (ix2 (0 : Fin 1) k) = ix2 (0 : Fin 1) k := by
  obtain ⟨-, -, -, -, -, ⟨e0, e1⟩, -⟩ := block_index_whole t
  funext d; apply Fin.ext
  match d with
  | ⟨0, _⟩ => show win2_9.index t (0 : Fin 2) * 1 + 1 * 0 = 0; rw [e0]
  | ⟨1, _⟩ => show win2_9.index t (1 : Fin 2) * 2048 + 1 * k.val = k.val; rw [e1]; omega
theorem emb_dyn (t : Fin cfg2.N) (k : Fin 2048) :
    ((cfg2.win 10).blk t).view.emb (ix2 (0 : Fin 1) k) = ix2 (0 : Fin 1) k := by
  obtain ⟨-, -, -, -, -, -, ⟨e0, e1⟩⟩ := block_index_whole t
  funext d; apply Fin.ext
  match d with
  | ⟨0, _⟩ => show win2_10.index t (0 : Fin 2) * 1 + 1 * 0 = 0; rw [e0]
  | ⟨1, _⟩ => show win2_10.index t (1 : Fin 2) * 2048 + 1 * k.val = k.val; rw [e1]; omega

/-! ## What a point writes back -/

/-- What point `t` writes back is the block of `Stsp.hidden` at `t`: the payload read at entry `(p, q)` of the
    block is the hidden update over the blocks' entries, and each block entry it reads is the array entry that
    `Stsp.hidden` reads at the output entry `(256 t + p, q)`. -/
theorem flushed_eq (c : Dev nD) (t : Fin cfg2.N) :
    (dat2 (F := Ideal) V c).flushed 11 t
      = ((cfg2.win 11).blk t).view.read (Elt Ideal)
          (Stsp.hidden (inp V c) (hid V c) (res V c) (util V c) (wIn V c) (wRec V c) (biasRow V c)
            (alphaF V c) (alphaD V c) (baseU V c) (dyn V c)) := by
  show (cfg2.win 11).cut (grid2.coords t) ((dat2 V c).after 11 t) = _
  rw [after2_11]
  unfold out2_11
  rw [View.canon_unit_zero hz]
  simp only [View.ld_unit_zero (S := S256x2048) hz, View.ld_unit_zero (S := S1x2048) hz,
    View.ld_unit_zero (S := S256x512) hz, View.ld_unit_zero (S := S512x2048) hz,
    View.ld_unit_zero (S := S2048x2048) hz]
  funext j
  obtain ⟨p, q, rfl⟩ : ∃ (p : Fin 256) (q : Fin 2048), j = ix2 p q := ⟨j 0, j 1, eq_ix2 j⟩
  refine (hidden_payload (iblk2 V c 1 t) (iblk2 V c 2 t) (iblk2 V c 3 t) (iblk2 V c 7 t) (iblk2 V c 8 t)
    (iblk2 V c 9 t) (iblk2 V c 10 t) (iblk2 V c 6 t) (iblk2 V c 0 t) (iblk2 V c 4 t) (iblk2 V c 5 t) p q).trans ?_
  show hid V c (((cfg2.win 1).blk t).view.emb (ix2 p q)) * Stsp.leak
      + Stsp.gain * max (((∑ k : Fin 512, inp V c (((cfg2.win 0).blk t).view.emb (ix2 p k)) * wIn V c (((cfg2.win 4).blk t).view.emb (ix2 k q)))
          + (∑ k : Fin 2048,
              ((Stsp.facilitate (hid V c (((cfg2.win 1).blk t).view.emb (ix2 p k))) (util V c (((cfg2.win 3).blk t).view.emb (ix2 p k)))
                    (alphaF V c (((cfg2.win 7).blk t).view.emb (ix2 (0 : Fin 1) k))) (baseU V c (((cfg2.win 9).blk t).view.emb (ix2 (0 : Fin 1) k)))
                    (dyn V c (((cfg2.win 10).blk t).view.emb (ix2 (0 : Fin 1) k)))
                  * Stsp.depress (hid V c (((cfg2.win 1).blk t).view.emb (ix2 p k))) (res V c (((cfg2.win 2).blk t).view.emb (ix2 p k)))
                    (util V c (((cfg2.win 3).blk t).view.emb (ix2 p k))) (alphaD V c (((cfg2.win 8).blk t).view.emb (ix2 (0 : Fin 1) k)))
                    (dyn V c (((cfg2.win 10).blk t).view.emb (ix2 (0 : Fin 1) k))))
                * hid V c (((cfg2.win 1).blk t).view.emb (ix2 p k)))
              * wRec V c (((cfg2.win 5).blk t).view.emb (ix2 k q))))
          + biasRow V c (((cfg2.win 6).blk t).view.emb (ix2 (0 : Fin 1) q))) Stsp.zero
    = Stsp.hidden (inp V c) (hid V c) (res V c) (util V c) (wIn V c) (wRec V c) (biasRow V c)
        (alphaF V c) (alphaD V c) (baseU V c) (dyn V c) (((cfg2.win 11).blk t).view.emb (ix2 p q))
  rw [emb_hid_out t p q, emb_bias t p q,
    Finset.sum_congr rfl fun (k : Fin 512) _ => by rw [emb_inp t p q k, emb_wIn t p q k],
    Finset.sum_congr rfl fun (k : Fin 2048) _ => by
      rw [emb_hid t p q k, emb_res t p q k, emb_util t p q k, emb_wRec t p q k, emb_alphaF t k, emb_alphaD t k, emb_baseU t k, emb_dyn t k]]
  rfl

/-! ## The blocks tile the output -/

/-- An index lies in the output's block at a point iff each coordinate lies in the block's range. -/
theorem mem_blk (t : Fin cfg2.N) (i : S8192x2048.Idx) :
    i ∈ ((cfg2.win 11).blk t).view.set ↔ ∀ a : Fin 2, win2_11.index t a * S256x2048.size a ≤ (i a).val
      ∧ (i a).val < win2_11.index t a * S256x2048.size a + S256x2048.size a := by
  show i ∈ ((View.whole main_v4_0).slice (win2_11.rect t)).set ↔ _
  rw [View.set_slice_whole, Rect.mem_set_unit]
  exact Iff.rfl

/-- The launch leaves the new hidden state in its first output array. -/
theorem final (c : Dev nD) :
    (dat2 (F := Ideal) V c).arrAt 11 cfg2.N
      = Stsp.hidden (inp V c) (hid V c) (res V c) (util V c) (wIn V c) (wRec V c) (biasRow V c)
          (alphaF V c) (alphaD V c) (baseU V c) (dyn V c) :=
  (dat2 (F := Ideal) V c).arrAt_eq_of_cover 11
    (Stsp.hidden (inp V c) (hid V c) (res V c) (util V c) (wIn V c) (wRec V c) (biasRow V c)
      (alphaF V c) (alphaD V c) (baseU V c) (dyn V c))
    (fun t _ => flushed_eq V c t) fun i => by
    -- row `r` lies in the block of point `r / 256`, which spans rows `256 (r / 256) … 256 (r / 256) + 255` and every column
    have hi0 : (i 0).val < 8192 := (i 0).isLt
    have hi1 : (i 1).val < 2048 := (i 1).isLt
    have hlt : (i 0).val / 256 < cfg2.N := by
      show (i 0).val / 256 < grid2.N
      rw [N_2]; omega
    obtain ⟨-, -, -, -, ⟨o0, o1⟩⟩ := block_index_rows ⟨(i 0).val / 256, hlt⟩
    replace o0 : win2_11.index ⟨(i 0).val / 256, hlt⟩ (0 : Fin 2) = (i 0).val / 256 := o0
    refine ⟨⟨(i 0).val / 256, hlt⟩, flush2_11 _, ?_⟩
    rw [mem_blk]
    intro a
    match a with
    | ⟨0, _⟩ =>
      show win2_11.index ⟨(i 0).val / 256, hlt⟩ (0 : Fin 2) * 256 ≤ (i 0).val
        ∧ (i 0).val < win2_11.index ⟨(i 0).val / 256, hlt⟩ (0 : Fin 2) * 256 + 256
      rw [o0]; omega
    | ⟨1, _⟩ =>
      show win2_11.index ⟨(i 0).val / 256, hlt⟩ (1 : Fin 2) * 2048 ≤ (i 1).val
        ∧ (i 1).val < win2_11.index ⟨(i 0).val / 256, hlt⟩ (1 : Fin 2) * 2048 + 2048
      rw [o1]; omega

end Cert.KernelIdeal.HiddenUpdate

end
-- ==== Proof.Fold.lean ====
import proofs.«416485_j1580547969043_3_alg».proof.Proof.Gen.KernelIdeal.Frame
import proofs.«416485_j1580547969043_3_alg».proof.Proof.Spec
import proofs.«416485_j1580547969043_3_alg».proof.Proof.InputWeights
import proofs.«416485_j1580547969043_3_alg».proof.Proof.EffectiveWeights
import proofs.«416485_j1580547969043_3_alg».proof.Proof.StateUpdate
import proofs.«416485_j1580547969043_3_alg».proof.Proof.HiddenUpdate
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Idealize.ShloMosaic.ValueIdx

variable (m : (ℓ : Loc nD τ sig) → Buf (Elt Ideal) ℓ) (ρ : Dev nD → PrngReg)

/-!
What the three result arrays hold once @main has run, as functions of the memory it was launched from.

The buffers' contents at the boundaries of @main's five segments form a fold: the first launch rewrites its
output array; a host reshape writes the unit types as a column; the second launch rewrites its output array;
a host reshape writes the bias as a row; the third launch rewrites its three output arrays. Every other
buffer keeps at each boundary what it held at the one before. Reading an array at the third launch's entry
therefore walks back through the boundaries to whoever wrote it last: the program's launch for an argument,
the first launch for the rectified input weights, the second for the effective recurrent weights, a reshape
for the column and the row. A reshape read at an entry is the vector's entry at the same row-major position.
-/

/-- The first host stretch writes only the unit-type column. -/
theorem keep1 (b : Ref sig .tc) (hb : b ≠ main_v1) (W : Valuation τ sig (Elt Ideal)) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The second host stretch writes only the bias row. -/
theorem keep2 (b : Ref sig .tc) (hb : b ≠ main_v3) (W : Valuation τ sig (Elt Ideal)) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- A buffer nobody has written by the second launch's entry holds there what the program was launched with. -/
theorem entry2_launch (c : Dev nD) (b : Ref sig .tc) (h1 : b ≠ main_v1) (hr0 : ∀ w, Pipeline.arrRef spec0 w ≠ b) :
    V2 m ρ c b = m ((c : Thread nD τ).loc b) :=
  calc W2 m ρ c (Proc.devRef .tc b)
    _ = W1 m ρ c (Proc.devRef .tc b) := keep1 b h1 _
    _ = W0 m ρ c (Proc.devRef .tc b) := W1_of_ne m ρ c b hr0
    _ = m ((c : Thread nD τ).loc b) := rfl

/-- A buffer nobody has written by the third launch's entry holds there what the program was launched with. -/
theorem entry3_launch (c : Dev nD) (b : Ref sig .tc) (h3 : b ≠ main_v3) (h1 : b ≠ main_v1)
    (hr1 : ∀ w, Pipeline.arrRef spec1 w ≠ b) (hr0 : ∀ w, Pipeline.arrRef spec0 w ≠ b) :
    V4 m ρ c b = m ((c : Thread nD τ).loc b) :=
  calc W4 m ρ c (Proc.devRef .tc b)
    _ = W3 m ρ c (Proc.devRef .tc b) := keep2 b h3 _
    _ = W2 m ρ c (Proc.devRef .tc b) := W3_of_ne m ρ c b hr1
    _ = m ((c : Thread nD τ).loc b) := entry2_launch m ρ c b h1 hr0

theorem entry3_arg0 (c : Dev nD) : V4 m ρ c main_arg0 = m ((c : Thread nD τ).loc main_arg0) :=
  entry3_launch m ρ c main_arg0 (by decide) (by decide) (by decide) (by decide)
theorem entry3_arg1 (c : Dev nD) : V4 m ρ c main_arg1 = m ((c : Thread nD τ).loc main_arg1) :=
  entry3_launch m ρ c main_arg1 (by decide) (by decide) (by decide) (by decide)
theorem entry3_arg2 (c : Dev nD) : V4 m ρ c main_arg2 = m ((c : Thread nD τ).loc main_arg2) :=
  entry3_launch m ρ c main_arg2 (by decide) (by decide) (by decide) (by decide)
theorem entry3_arg3 (c : Dev nD) : V4 m ρ c main_arg3 = m ((c : Thread nD τ).loc main_arg3) :=
  entry3_launch m ρ c main_arg3 (by decide) (by decide) (by decide) (by decide)
theorem entry3_arg7 (c : Dev nD) : V4 m ρ c main_arg7 = m ((c : Thread nD τ).loc main_arg7) :=
  entry3_launch m ρ c main_arg7 (by decide) (by decide) (by decide) (by decide)
theorem entry3_arg8 (c : Dev nD) : V4 m ρ c main_arg8 = m ((c : Thread nD τ).loc main_arg8) :=
  entry3_launch m ρ c main_arg8 (by decide) (by decide) (by decide) (by decide)
theorem entry3_arg9 (c : Dev nD) : V4 m ρ c main_arg9 = m ((c : Thread nD τ).loc main_arg9) :=
  entry3_launch m ρ c main_arg9 (by decide) (by decide) (by decide) (by decide)
theorem entry3_arg10 (c : Dev nD) : V4 m ρ c main_arg10 = m ((c : Thread nD τ).loc main_arg10) :=
  entry3_launch m ρ c main_arg10 (by decide) (by decide) (by decide) (by decide)

/-- The launch memory's arrays at their literal types. -/
abbrev inp (c : Dev nD) : Stsp.Mat 8192 512 := m ((c : Thread nD τ).loc main_arg0)
abbrev hid (c : Dev nD) : Stsp.Mat 8192 2048 := m ((c : Thread nD τ).loc main_arg1)
abbrev res (c : Dev nD) : Stsp.Mat 8192 2048 := m ((c : Thread nD τ).loc main_arg2)
abbrev util (c : Dev nD) : Stsp.Mat 8192 2048 := m ((c : Thread nD τ).loc main_arg3)
abbrev wih (c : Dev nD) : Stsp.Mat 512 2048 := m ((c : Thread nD τ).loc main_arg4)
abbrev whh (c : Dev nD) : Stsp.Mat 2048 2048 := m ((c : Thread nD τ).loc main_arg5)
abbrev bias (c : Dev nD) : Stsp.Vect 2048 := m ((c : Thread nD τ).loc main_arg6)
abbrev alphaF (c : Dev nD) : Stsp.Mat 1 2048 := m ((c : Thread nD τ).loc main_arg7)
abbrev alphaD (c : Dev nD) : Stsp.Mat 1 2048 := m ((c : Thread nD τ).loc main_arg8)
abbrev baseU (c : Dev nD) : Stsp.Mat 1 2048 := m ((c : Thread nD τ).loc main_arg9)
abbrev dyn (c : Dev nD) : Stsp.Mat 1 2048 := m ((c : Thread nD τ).loc main_arg10)
abbrev unitTypes (c : Dev nD) : Stsp.Vect 2048 := m ((c : Thread nD τ).loc main_arg11)
abbrev mask (c : Dev nD) : Stsp.Mat 2048 2048 := m ((c : Thread nD τ).loc main_arg12)

/-- At the third launch's entry the rectified input weights are what the first launch left: `max W 0` of the
    launch memory's input weights. -/
theorem entry3_wIn (c : Dev nD) : V4 m ρ c main_v0 = Stsp.rectified (wih m c) :=
  calc W4 m ρ c (Proc.devRef .tc main_v0)
    _ = W3 m ρ c (Proc.devRef .tc main_v0) := keep2 main_v0 (by decide) _
    _ = W2 m ρ c (Proc.devRef .tc main_v0) := W3_of_ne m ρ c main_v0 (by decide)
    _ = W1 m ρ c (Proc.devRef .tc main_v0) := keep1 main_v0 (by decide) _
    _ = (dat0 (F := Ideal) (V0 m ρ) c).arrAt 1 cfg0.N := W1_arr m ρ c 1
    _ = Stsp.rectified (wih m c) := InputWeights.final (V0 m ρ) c

/-- The unit types reshaped to a column: entry `(r, 0)` is the vector's entry `r`. -/
theorem entry2_column (c : Dev nD) : V2 m ρ c main_v1 = Stsp.asColumn (unitTypes m c) := by
  have e : W2 m ρ c (Proc.devRef .tc main_v1)
      = fun i => shapeCast S2048x1 (W1 m ρ c (Proc.devRef .tc main_arg11)) shapeCasts_S2048_S2048x1 i := by
    show StableHlo.after (hostOps1 (F := Ideal)) (W1 m ρ c) (Proc.devRef .tc main_v1) = _
    after_results
    rfl
  have e11 : W1 m ρ c (Proc.devRef .tc main_arg11) = unitTypes m c := W1_of_ne m ρ c main_arg11 (by decide)
  show W2 m ρ c (Proc.devRef .tc main_v1) = _
  rw [e, e11]
  funext j
  refine (shapeCast_apply (unitTypes m c) shapeCasts_S2048_S2048x1 j (ix1 (j 0)) ?_).trans rfl
  have h1 : (j 1).val < 1 := (j 1).isLt
  rw [Shape.rowMajor_val_one, Shape.rowMajor_val_two]
  show (j 0).val = (j 0).val * 1 + (j 1).val
  omega

/-- At the third launch's entry the effective recurrent weights are what the second launch left, and the arrays
    that launch read were the launch memory's raw weights and mask and the unit types as a column. -/
theorem entry3_wRec (c : Dev nD) :
    V4 m ρ c main_v2 = Stsp.effective (whh m c) (Stsp.asColumn (unitTypes m c)) (mask m c) := by
  have e5 : V2 m ρ c main_arg5 = whh m c := entry2_launch m ρ c main_arg5 (by decide) (by decide)
  have e12 : V2 m ρ c main_arg12 = mask m c := entry2_launch m ρ c main_arg12 (by decide) (by decide)
  have e1 := entry2_column m ρ c
  calc W4 m ρ c (Proc.devRef .tc main_v2)
    _ = W3 m ρ c (Proc.devRef .tc main_v2) := keep2 main_v2 (by decide) _
    _ = (dat1 (F := Ideal) (V2 m ρ) c).arrAt 3 cfg1.N := W3_arr m ρ c 3
    _ = Stsp.effective (V2 m ρ c main_arg5) (V2 m ρ c main_v1) (V2 m ρ c main_arg12) := EffectiveWeights.final (V2 m ρ) c
    _ = Stsp.effective (whh m c) (Stsp.asColumn (unitTypes m c)) (mask m c) := by rw [e5, e12, e1]

/-- The bias reshaped to a row: entry `(0, j)` is the vector's entry `j`. -/
theorem entry3_biasRow (c : Dev nD) : V4 m ρ c main_v3 = Stsp.asRow (bias m c) := by
  have e : W4 m ρ c (Proc.devRef .tc main_v3)
      = fun i => shapeCast S1x2048 (W3 m ρ c (Proc.devRef .tc main_arg6)) shapeCasts_S2048_S1x2048 i := by
    show StableHlo.after (hostOps2 (F := Ideal)) (W3 m ρ c) (Proc.devRef .tc main_v3) = _
    after_results
    rfl
  have e6 : W3 m ρ c (Proc.devRef .tc main_arg6) = bias m c :=
    (W3_of_ne m ρ c main_arg6 (by decide)).trans (entry2_launch m ρ c main_arg6 (by decide) (by decide))
  show W4 m ρ c (Proc.devRef .tc main_v3) = _
  rw [e, e6]
  funext j
  refine (shapeCast_apply (bias m c) shapeCasts_S2048_S1x2048 j (ix1 (j 1)) ?_).trans rfl
  have h0 : (j 0).val < 1 := (j 0).isLt
  rw [Shape.rowMajor_val_one, Shape.rowMajor_val_two]
  show (j 1).val = (j 0).val * 2048 + (j 1).val
  omega

/-- The second result array: the new resources of the launch memory's state and parameters. -/
theorem resources_result (c : Dev nD) :
    W5 m ρ c (Proc.devRef .tc main_v4_1) = Stsp.resources (hid m c) (res m c) (util m c) (alphaD m c) (dyn m c) := by
  refine (W5_arr m ρ c 12).trans ((StateUpdate.resources_final (V4 m ρ) c).trans ?_)
  show Stsp.resources (V4 m ρ c main_arg1) (V4 m ρ c main_arg2) (V4 m ρ c main_arg3) (V4 m ρ c main_arg8) (V4 m ρ c main_arg10) = _
  rw [entry3_arg1, entry3_arg2, entry3_arg3, entry3_arg8, entry3_arg10]

/-- The third result array: the new utilisation. -/
theorem utilisation_result (c : Dev nD) :
    W5 m ρ c (Proc.devRef .tc main_v4_2) = Stsp.utilisation (hid m c) (util m c) (alphaF m c) (baseU m c) (dyn m c) := by
  refine (W5_arr m ρ c 13).trans ((StateUpdate.utilisation_final (V4 m ρ) c).trans ?_)
  show Stsp.utilisation (V4 m ρ c main_arg1) (V4 m ρ c main_arg3) (V4 m ρ c main_arg7) (V4 m ρ c main_arg9) (V4 m ρ c main_arg10) = _
  rw [entry3_arg1, entry3_arg3, entry3_arg7, entry3_arg9, entry3_arg10]

/-- The first result array: the whole step's new hidden state. -/
theorem hidden_result (c : Dev nD) :
    W5 m ρ c (Proc.devRef .tc main_v4_0)
      = Stsp.step (inp m c) (hid m c) (res m c) (util m c) (wih m c) (whh m c) (bias m c)
          (alphaF m c) (alphaD m c) (baseU m c) (dyn m c) (unitTypes m c) (mask m c) := by
  refine (W5_arr m ρ c 11).trans ((HiddenUpdate.final (V4 m ρ) c).trans ?_)
  show Stsp.hidden (V4 m ρ c main_arg0) (V4 m ρ c main_arg1) (V4 m ρ c main_arg2) (V4 m ρ c main_arg3)
      (V4 m ρ c main_v0) (V4 m ρ c main_v2) (V4 m ρ c main_v3)
      (V4 m ρ c main_arg7) (V4 m ρ c main_arg8) (V4 m ρ c main_arg9) (V4 m ρ c main_arg10) = _
  rw [entry3_arg0, entry3_arg1, entry3_arg2, entry3_arg3, entry3_wIn, entry3_wRec, entry3_biasRow,
    entry3_arg7, entry3_arg8, entry3_arg9, entry3_arg10]
  rfl

end Cert.KernelIdeal.Fold

end
-- ==== Proof.RefSide.lean ====
import proofs.«416485_j1580547969043_3_alg».proof.Proof.Gen.ReferenceIdeal.Run
import proofs.«416485_j1580547969043_3_alg».proof.Proof.Gen.ReferenceIdeal.Read
import proofs.«416485_j1580547969043_3_alg».proof.Proof.Spec
import Idealize.ShloMosaic.Lib.ValueIdx
import Idealize.ShloMosaic.PureOps.Ideal.Laws

/-!
The reference's three results are the specification's functions of its arguments. Each result is read one
operation at a time at an index: every broadcast reads its operand at the row, the column or the scalar the
entry names, every arithmetic operation is the extended reals' own, the two `dot_general`s are `Finset` sums
over the contraction index, and `clip` and `relu` are the `min`/`max` against the shared words.
-/

set_option maxRecDepth 16384

noncomputable section

open Idealize.ShloMosaic Idealize.ShloMosaic.TcCoe Idealize.SL.Sem

namespace Cert.ReferenceIdeal.Spec

open Cert.ReferenceIdeal Cert.ReferenceIdeal.Gen Cert.ReferenceIdeal.Read Idealize.ShloMosaic.ValueIdx

/-- The reference's second result is the new resources. -/
theorem resources_eq (x1 x2 x3 : Stsp.Mat 8192 2048) (x8 x10 : Stsp.Mat 1 2048) :
    val_main_v27 (F := Ideal) x1 x2 x3 x8 x10 = Stsp.resources x1 x2 x3 x8 x10 := by
  funext i
  have e2 : idx_main_v2 i = Stsp.rowOf i :=
    funext fun a => Fin.ext (by match a with | ⟨0, _⟩ => rfl | ⟨1, _⟩ => rfl)
  have e9 : idx_main_v9 i = Stsp.rowOf i :=
    funext fun a => Fin.ext (by match a with | ⟨0, _⟩ => rfl | ⟨1, _⟩ => rfl)
  rw [val_main_v27_apply, val_main_call0_v4_apply, val_main_call0_v3_apply, val_main_cst_4_apply,
    val_main_call0_v2_apply, val_main_call0_v1_apply, val_main_call0_v0_apply, val_main_cst_3_apply,
    val_main_v11_apply, val_main_v10_apply, val_main_v8_apply, val_main_v3_apply, val_main_v2_apply,
    val_main_v1_apply, val_main_v0_apply, val_main_cst_apply, val_main_v7_apply, val_main_v6_apply,
    val_main_v5_apply, val_main_v4_apply, val_main_cst_0_apply, val_main_v9_apply, e2, e9]
  rfl

/-- The reference's third result is the new utilisation. -/
theorem utilisation_eq (x1 x3 : Stsp.Mat 8192 2048) (x7 x9 x10 : Stsp.Mat 1 2048) :
    val_main_v28 (F := Ideal) x1 x3 x7 x9 x10 = Stsp.utilisation x1 x3 x7 x9 x10 := by
  funext i
  have e12 : idx_main_v12 i = Stsp.rowOf i :=
    funext fun a => Fin.ext (by match a with | ⟨0, _⟩ => rfl | ⟨1, _⟩ => rfl)
  have e14 : idx_main_v14 i = Stsp.rowOf i :=
    funext fun a => Fin.ext (by match a with | ⟨0, _⟩ => rfl | ⟨1, _⟩ => rfl)
  have e20 : idx_main_v20 i = Stsp.rowOf i :=
    funext fun a => Fin.ext (by match a with | ⟨0, _⟩ => rfl | ⟨1, _⟩ => rfl)
  have e24 : idx_main_v24 i = Stsp.rowOf i :=
    funext fun a => Fin.ext (by match a with | ⟨0, _⟩ => rfl | ⟨1, _⟩ => rfl)
  rw [val_main_v28_apply, val_main_call1_v4_apply, val_main_call1_v3_apply, val_main_cst_6_apply,
    val_main_call1_v2_apply, val_main_call1_v1_apply, val_main_call1_v0_apply, val_main_cst_5_apply,
    val_main_v26_apply, val_main_v25_apply, val_main_v23_apply, val_main_v15_apply, val_main_v14_apply,
    val_main_v13_apply, val_main_v12_apply, val_main_v22_apply, val_main_v21_apply, val_main_v20_apply,
    val_main_v17_apply, val_main_v16_apply, val_main_cst_1_apply, val_main_v19_apply, val_main_v18_apply,
    val_main_cst_2_apply, val_main_v24_apply, e12, e14, e20, e24]
  rfl

/-- An entry of the reference's rectified input weights. -/
theorem rectified_apply (x4 : Stsp.Mat 512 2048) (j : (⟨2, ![512, 2048]⟩ : Shape).Idx) :
    val_main_v36 (F := Ideal) x4 j = Stsp.rectified x4 j := by
  rw [val_main_v36_apply, val_main_call3_v0_apply, val_main_call3_cst_apply]
  rfl

/-- An entry of the reference's effective recurrent weights: the unit type is read at the entry's row. -/
theorem effective_apply (x5 : Stsp.Mat 2048 2048) (x11 : Stsp.Vect 2048) (x12 : Stsp.Mat 2048 2048)
    (j : (⟨2, ![2048, 2048]⟩ : Shape).Idx) :
    val_main_v35 (F := Ideal) x5 x11 x12 j = Stsp.effective x5 (Stsp.asColumn x11) x12 j := by
  have e : idx_main_v31 (idx_main_v33 j) = ix1 (j 0) :=
    funext fun a => Fin.ext (by match a with | ⟨0, _⟩ => rfl)
  rw [val_main_v35_apply, val_main_v34_apply, val_main_v33_apply, val_main_v31_apply, val_main_v32_apply,
    val_main_call2_v0_apply, val_main_call2_cst_apply, e]
  rfl

/-- An entry of the reference's gated hidden state: the new utilisation times the new resources times
the old hidden state, all at the same entry. -/
theorem gated_apply (x1 x2 x3 : Stsp.Mat 8192 2048) (x7 x8 x9 x10 : Stsp.Mat 1 2048)
    (j : (⟨2, ![8192, 2048]⟩ : Shape).Idx) :
    val_main_v30 (F := Ideal) x1 x2 x3 x7 x8 x9 x10 j = Stsp.gated x1 x2 x3 x7 x8 x9 x10 j := by
  rw [val_main_v30_apply, val_main_v29_apply, utilisation_eq, resources_eq]
  rfl

/-- The input product at an entry: the contraction runs over the input's columns and the weights' rows. -/
theorem inputSum_apply (x0 : Stsp.Mat 8192 512) (x4 : Stsp.Mat 512 2048) (i : (⟨2, ![8192, 2048]⟩ : Shape).Idx) :
    val_main_v37 (F := Ideal) x0 x4 i
      = ∑ q : Fin 512, x0 (ix2 (i 0) q) * Stsp.rectified x4 (ix2 q (i 1)) := by
  rw [val_main_v37_apply]
  refine Finset.sum_congr rfl fun k _ => ?_
  have el : lidx_main_v37 i k = ix2 (i 0) k :=
    funext fun a => Fin.ext (by match a with | ⟨0, _⟩ => rfl | ⟨1, _⟩ => rfl)
  have er : ridx_main_v37 i k = ix2 k (i 1) :=
    funext fun a => Fin.ext (by match a with | ⟨0, _⟩ => rfl | ⟨1, _⟩ => rfl)
  rw [rectified_apply, el, er]
  rfl

/-- The recurrent product at an entry: the contraction runs over the gated state's columns and the
effective weights' rows. -/
theorem recurrentSum_apply (x1 x2 x3 : Stsp.Mat 8192 2048) (x5 : Stsp.Mat 2048 2048)
    (x7 x8 x9 x10 : Stsp.Mat 1 2048) (x11 : Stsp.Vect 2048) (x12 : Stsp.Mat 2048 2048)
    (i : (⟨2, ![8192, 2048]⟩ : Shape).Idx) :
    val_main_v38 (F := Ideal) x1 x2 x3 x5 x7 x8 x9 x10 x11 x12 i
      = ∑ q : Fin 2048, Stsp.gated x1 x2 x3 x7 x8 x9 x10 (ix2 (i 0) q)
          * Stsp.effective x5 (Stsp.asColumn x11) x12 (ix2 q (i 1)) := by
  rw [val_main_v38_apply]
  refine Finset.sum_congr rfl fun k _ => ?_
  have el : lidx_main_v38 i k = ix2 (i 0) k :=
    funext fun a => Fin.ext (by match a with | ⟨0, _⟩ => rfl | ⟨1, _⟩ => rfl)
  have er : ridx_main_v38 i k = ix2 k (i 1) :=
    funext fun a => Fin.ext (by match a with | ⟨0, _⟩ => rfl | ⟨1, _⟩ => rfl)
  rw [gated_apply, effective_apply, el, er]
  rfl

/-- The reference's first result is the whole step's new hidden state. -/
theorem hidden_eq (x0 : Stsp.Mat 8192 512) (x1 x2 x3 : Stsp.Mat 8192 2048) (x4 : Stsp.Mat 512 2048) (x5 : Stsp.Mat 2048 2048)
    (x6 : Stsp.Vect 2048) (x7 x8 x9 x10 : Stsp.Mat 1 2048) (x11 : Stsp.Vect 2048) (x12 : Stsp.Mat 2048 2048) :
    val_main_v48 (F := Ideal) x0 x1 x2 x3 x4 x5 x6 x7 x8 x9 x10 x11 x12
      = Stsp.step x0 x1 x2 x3 x4 x5 x6 x7 x8 x9 x10 x11 x12 := by
  funext i
  have e6 : idx_main_v40 (idx_main_v41 i) = ix1 (i 1) :=
    funext fun a => Fin.ext (by match a with | ⟨0, _⟩ => rfl)
  rw [val_main_v48_apply, val_main_v44_apply, val_main_v43_apply, val_main_cst_7_apply,
    val_main_v47_apply, val_main_v46_apply, val_main_cst_8_apply, val_main_v45_apply,
    val_main_call4_v0_apply, val_main_call4_cst_apply, val_main_v42_apply, val_main_v41_apply,
    val_main_v40_apply, val_main_v39_apply, inputSum_apply, recurrentSum_apply, e6]
  rfl

end Cert.ReferenceIdeal.Spec

end
-- ==== Proof.lean ====
/-
  One step of a recurrent cell with short-term synaptic plasticity, as a TPU kernel of three launches against
  its plain array reference, equal over the extended reals.

  Both programs compute, for a batch of 8192 rows and 2048 units, the clipped depression update of the synaptic
  resources, the clipped facilitation update of the utilisation, the gated state (their product times the old
  hidden state), and the new hidden state: the old one leaked plus a gain times the rectified sum of the
  inputs through the rectified input weights, the gated state through the effective recurrent weights (rectified,
  signed by unit type, masked) and the bias (Proof/Spec.lean states these as whole-array functions).

  The kernel rectifies the input weights in a first launch, builds the effective recurrent weights in a second,
  eight row blocks at a time, and does the step in a third, 32 blocks of 256 batch rows at a time, each block
  with the two matrix products over the whole contraction. The reference does the same operations on whole
  arrays. They spell the same operations in the same order on the same literal words, so the two are one tree
  of operations read at every entry: no algebraic law joins them and the precondition is never opened. What
  differs is only where the entries live, and that is what the proof follows: each launch's output array is
  the function of the arrays the launch found (Proof/InputWeights, EffectiveWeights, StateUpdate, HiddenUpdate),
  the arrays each launch finds are read back through the program's segments to the launch memory (Proof/Fold,
  over the run with its results named, Proof/ResultsRun), and the reference's results are read operation by
  operation (Proof/RefSide). A matrix product at an entry is a finite sum over the contraction index on both
  sides, a change of float format the identity. The ideal pass rewrote nothing, so `preserves` is trivial, and
  the three frames are the programs' own runs.
-/
import proofs.«416485_j1580547969043_3_alg».proof.Defs
import proofs.«416485_j1580547969043_3_alg».proof.Proof.Gen.Kernel
import proofs.«416485_j1580547969043_3_alg».proof.Proof.Gen.Kernel.Frame
import proofs.«416485_j1580547969043_3_alg».proof.Proof.Gen.KernelIdeal
import proofs.«416485_j1580547969043_3_alg».proof.Proof.Gen.KernelIdeal.Frame
import proofs.«416485_j1580547969043_3_alg».proof.Proof.Gen.ReferenceIdeal
import proofs.«416485_j1580547969043_3_alg».proof.Proof.Gen.ReferenceIdeal.Run
import proofs.«416485_j1580547969043_3_alg».proof.Proof.Gen.ReferenceIdeal.Read
import proofs.«416485_j1580547969043_3_alg».proof.Proof.Gen.Pre_finite_inputs
import proofs.«416485_j1580547969043_3_alg».proof.Proof.ResultsRun
import proofs.«416485_j1580547969043_3_alg».proof.Proof.Fold
import proofs.«416485_j1580547969043_3_alg».proof.Proof.RefSide

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its generated run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs, from memories agreeing on the arguments, end with the specification's three arrays of those
    arguments: the kernel by the fold through its three launches, the reference operation by operation. -/
theorem algebraic : Cert.algebraic_KernelIdeal_ReferenceIdeal := by
  intro m ρ m' ρ' _ hagree
  refine ⟨fun c => Stsp.step (KernelIdeal.Fold.inp m c) (KernelIdeal.Fold.hid m c) (KernelIdeal.Fold.res m c) (KernelIdeal.Fold.util m c)
        (KernelIdeal.Fold.wih m c) (KernelIdeal.Fold.whh m c) (KernelIdeal.Fold.bias m c) (KernelIdeal.Fold.alphaF m c)
        (KernelIdeal.Fold.alphaD m c) (KernelIdeal.Fold.baseU m c) (KernelIdeal.Fold.dyn m c) (KernelIdeal.Fold.unitTypes m c)
        (KernelIdeal.Fold.mask m c),
      fun c => Stsp.resources (KernelIdeal.Fold.hid m c) (KernelIdeal.Fold.res m c) (KernelIdeal.Fold.util m c)
        (KernelIdeal.Fold.alphaD m c) (KernelIdeal.Fold.dyn m c),
      fun c => Stsp.utilisation (KernelIdeal.Fold.hid m c) (KernelIdeal.Fold.util m c) (KernelIdeal.Fold.alphaF m c)
        (KernelIdeal.Fold.baseU m c) (KernelIdeal.Fold.dyn m c), ?_, ?_⟩
  · exact (θ_run Cert.KernelIdeal.defs _ _).mono (fun r h c =>
        ⟨(h c).1.trans (KernelIdeal.Fold.hidden_result m ρ c),
         (h c).2.1.trans (KernelIdeal.Fold.resources_result m ρ c),
         (h c).2.2.1.trans (KernelIdeal.Fold.utilisation_result m ρ c),
         (h c).2.2.2⟩)
      (Cert.KernelIdeal.Results.run_results (F := Ideal) m ρ)
  · refine (θ_run Cert.ReferenceIdeal.defs _ _).mono (fun r h c => ?_) (Cert.ReferenceIdeal.Value.run (F := Ideal) m' ρ')
    obtain ⟨h48, h27, h28, hargs⟩ := h c
    obtain ⟨a0, a1, a2, a3, a4, a5, a6, a7, a8, a9, a10, a11, a12⟩ := hagree c
    refine ⟨?_, ?_, ?_, hargs⟩
    · rw [h48, Cert.ReferenceIdeal.Read.val_main_v48_eq, Cert.ReferenceIdeal.Spec.hidden_eq,
        a0, a1, a2, a3, a4, a5, a6, a7, a8, a9, a10, a11, a12]
    · rw [h27, Cert.ReferenceIdeal.Read.val_main_v27_eq, Cert.ReferenceIdeal.Spec.resources_eq, a1, a2, a3, a8, a10]
    · rw [h28, Cert.ReferenceIdeal.Read.val_main_v28_eq, Cert.ReferenceIdeal.Spec.utilisation_eq, a1, a3, a7, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
